-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S64x64 .f32) (main_arg5 : FVec F S64 .f32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S10000x64 : Shape := ⟨2, ![10000, 64]⟩
abbrev S1x64 : Shape := ⟨2, ![1, 64]⟩
abbrev S200x10000 : Shape := ⟨2, ![200, 10000]⟩
abbrev S200x64 : Shape := ⟨2, ![200, 64]⟩
abbrev S10000x1 : Shape := ⟨2, ![10000, 1]⟩
abbrev S1000x10000 : Shape := ⟨2, ![1000, 10000]⟩
abbrev S1000x1 : Shape := ⟨2, ![1000, 1]⟩
abbrev S1000x64 : Shape := ⟨2, ![1000, 64]⟩
abbrev S1000 : Shape := ⟨1, ![1000]⟩
abbrev S1x1 : Shape := ⟨2, ![1, 1]⟩

abbrev nBuf : Space → Nat
  | .hbm => 17
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S10000x64, .f32⟩
  | .hbm, ⟨9, _⟩ => ⟨S1x64, .f32⟩
  | .hbm, ⟨10, _⟩ => ⟨S10000x64, .f32⟩
  | .hbm, ⟨11, _⟩ => ⟨S10000x10000, .bf16⟩
  | .hbm, ⟨12, _⟩ => ⟨S1x64, .f32⟩
  | .hbm, ⟨13, _⟩ => ⟨S1x64, .f32⟩
  | .hbm, ⟨14, _⟩ => ⟨S10000x1, .f32⟩
  | .hbm, ⟨15, _⟩ => ⟨S1x1, .f32⟩
  | .hbm, ⟨16, _⟩ => ⟨S10000x1, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S200x10000, .f32⟩
  | .local _ .vmem, ⟨4, _⟩ => ⟨S200x10000, .f32⟩
  | .local _ .vmem, ⟨5, _⟩ => ⟨S10000x64, .f32⟩
  | .local _ .vmem, ⟨6, _⟩ => ⟨S1x64, .f32⟩
  | .local _ .vmem, ⟨7, _⟩ => ⟨S64x64, .f32⟩
  | .local _ .vmem, ⟨8, _⟩ => ⟨S200x64, .f32⟩
  | .local _ .vmem, ⟨9, _⟩ => ⟨S200x64, .f32⟩
  | .local _ .vmem, ⟨10, _⟩ => ⟨S200x10000, .bf16⟩
  | .local _ .vmem, ⟨11, _⟩ => ⟨S200x10000, .bf16⟩
  | .local _ .vmem, ⟨12, _⟩ => ⟨S1000x10000, .bf16⟩
  | .local _ .vmem, ⟨13, _⟩ => ⟨S1000x10000, .bf16⟩
  | .local _ .vmem, ⟨14, _⟩ => ⟨S10000x64, .f32⟩
  | .local _ .vmem, ⟨15, _⟩ => ⟨S1x64, .f32⟩
  | .local _ .vmem, ⟨16, _⟩ => ⟨S1x64, .f32⟩
  | .local _ .vmem, ⟨17, _⟩ => ⟨S1000x1, .f32⟩
  | .local _ .vmem, ⟨18, _⟩ => ⟨S1000x1, .f32⟩
  | .local _ .vmem, ⟨19, _⟩ => ⟨S1000x10000, .bf16⟩
  | .local _ .vmem, ⟨20, _⟩ => ⟨S1000x10000, .bf16⟩
  | .local _ .vmem, ⟨21, _⟩ => ⟨S10000x1, .f32⟩
  | .local _ .vmem, ⟨22, _⟩ => ⟨S1x1, .f32⟩
  | .local _ .vmem, ⟨23, _⟩ => ⟨S1000x1, .f32⟩
  | .local _ .vmem, ⟨24, _⟩ => ⟨S1000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x10000 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1000x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S64_S1x64 : S64.ShapeCasts S1x64
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x64_S64x64_0_0 : ∀ a, (![0, 0] : Fin 2 → Nat) a + S64x64.size a ≤ S64x64.size a
  h_S64x64 : 0 < S64x64.numel
  inb_S200x64_S200x64_0_0 : ∀ a, (![0, 0] : Fin 2 → Nat) a + S200x64.size a ≤ S200x64.size a
  h_S200x64 : 0 < S200x64.numel
  shapeCasts_S64x1_S1x64 : S64x1.ShapeCasts S1x64
  inb_S1000x10000_S1000x10000_0_0 : ∀ a, (![0, 0] : Fin 2 → Nat) a + S1000x10000.size a ≤ S1000x10000.size a
  h_S1000x10000 : 0 < S1000x10000.numel
  shapeCasts_S1000x10000_S1000x10000 : S1000x10000.ShapeCasts S1000x10000
  broadcasts_S1x64_S1000x64 : S1x64.Broadcasts S1000x64
  reduces_S1000x64_S1000 : S1000x64.Reduces [1] S1000
  shapeCasts_S1000_S1000x1 : S1000.ShapeCasts S1000x1
  inb_S1000x1_S1000x1_0_0 : ∀ a, (![0, 0] : Fin 2 → Nat) a + S1000x1.size a ≤ S1000x1.size a
  h_S1000x1 : 0 < S1000x1.numel
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1000x1 : S1x1.Broadcasts S1000x1
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S1000x10000_S10000x64_S1000x64_1_0_0_1_n_n_wf : DotDims.WF S1000x10000 S10000x64 S1000x64 [1] [0] [0] [1] [] []
  dot_S1000x10000_S10000x1_S1000x1_1_0_0_1_n_n_wf : DotDims.WF S1000x10000 S10000x1 S1000x1 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x64.size a ≤ S10000x64.size a
  hwx1_4 : ∀ i : grid1.Coords, EltTy.bits .f32 = 32 ∨ (Rect.block (s := S10000x64) S200x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S200x10000.size a ≤ S10000x10000.size a
  hwx1_5 : ∀ i : grid1.Coords, EltTy.bits .bf16 = 32 ∨ (Rect.block (s := S10000x10000) S200x10000.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1000x10000.size a ≤ S10000x10000.size a
  hwx2_0 : ∀ i : grid2.Coords, EltTy.bits .bf16 = 32 ∨ (Rect.block (s := S10000x10000) S1000x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .f32 = 32 ∨ (Rect.block (s := S10000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1000x1.size a ≤ S10000x1.size a
  hwx2_4 : ∀ i : grid2.Coords, EltTy.bits .f32 = 32 ∨ (Rect.block (s := S10000x1) S1000x1.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x10000.size a ≤ S10000x10000.size a
  hwx3_0 : ∀ i : grid3.Coords, EltTy.bits .bf16 = 32 ∨ (Rect.block (s := S10000x10000) S1000x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S10000x1.size a
  hwx3_1 : ∀ i : grid3.Coords, EltTy.bits .f32 = 32 ∨ (Rect.block (s := S10000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1000x1.size a ≤ S10000x1.size a
  hwx3_3 : ∀ i : grid3.Coords, EltTy.bits .f32 = 32 ∨ (Rect.block (s := S10000x1) S1000x1.size (cc3_transform_3 i) (hinb3_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S1000x10000_S10000x64_S1000x64_1_0_0_1_n_n : DotDims S1000x10000 S10000x64 S1000x64 where
  lhsContracting := [1]
  rhsContracting := [0]
  lhsNonContracting := [0]
  rhsNonContracting := [1]
  lhsBatch := []
  rhsBatch := []
  wf := dot_S1000x10000_S10000x64_S1000x64_1_0_0_1_n_n_wf
def dot_S1000x10000_S10000x1_S1000x1_1_0_0_1_n_n : DotDims S1000x10000 S10000x1 S1000x1 where
  lhsContracting := [1]
  rhsContracting := [0]
  lhsNonContracting := [0]
  rhsNonContracting := [1]
  lhsBatch := []
  rhsBatch := []
  wf := dot_S1000x10000_S10000x1_S1000x1_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S200x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S200x10000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v2_1) S1000x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1000x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v2_1) S1000x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v5) S10000x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v6) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v7) S1000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S10000x64 : Shape := ⟨2, ![10000, 64]⟩
abbrev S1x64 : Shape := ⟨2, ![1, 64]⟩
abbrev S_ : Shape := ⟨0, ![]⟩
abbrev S10000x1 : Shape := ⟨2, ![10000, 1]⟩
abbrev S1x1 : Shape := ⟨2, ![1, 1]⟩

abbrev nBuf : Space → Nat
  | .hbm => 43
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S10000x128, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S_, .f32⟩
  | .hbm, ⟨22, _⟩ => ⟨S10000x64, .f32⟩
  | .hbm, ⟨23, _⟩ => ⟨S10000x64, .f32⟩
  | .hbm, ⟨24, _⟩ => ⟨S10000x64, .f32⟩
  | .hbm, ⟨25, _⟩ => ⟨S10000x1, .f32⟩
  | .hbm, ⟨26, _⟩ => ⟨S1x1, .f32⟩
  | .hbm, ⟨27, _⟩ => ⟨S10000x1, .f32⟩
  | .hbm, ⟨28, _⟩ => ⟨S10000x1, .f32⟩
  | .hbm, ⟨29, _⟩ => ⟨S_, .f32⟩
  | .hbm, ⟨30, _⟩ => ⟨S10000x1, .f32⟩
  | .hbm, ⟨31, _⟩ => ⟨S10000x1, .f32⟩
  | .hbm, ⟨32, _⟩ => ⟨S10000x1, .f32⟩
  | .hbm, ⟨33, _⟩ => ⟨S10000x1, .f32⟩
  | .hbm, ⟨34, _⟩ => ⟨S10000x1, .i1⟩
  | .hbm, ⟨35, _⟩ => ⟨S10000x1, .f32⟩
  | .hbm, ⟨36, _⟩ => ⟨S10000x1, .f32⟩
  | .hbm, ⟨37, _⟩ => ⟨S10000x1, .f32⟩
  | .hbm, ⟨38, _⟩ => ⟨S10000x1, .f32⟩
  | .hbm, ⟨39, _⟩ => ⟨S10000x1, .f32⟩
  | .hbm, ⟨40, _⟩ => ⟨S10000x1, .f32⟩
  | .hbm, ⟨41, _⟩ => ⟨S10000x1, .f32⟩
  | .hbm, ⟨42, _⟩ => ⟨S10000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_v17 : Ref sig .tc := ⟨.hbm, 42, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.Spec.lean ====
/-
  The mathematics of the graph network, free of any program: matrices are functions of two Fin coordinates into the
  extended reals.  The kernel computes  adj · (x · W0),  adj · (relu(…) · W1),  adj · (relu(…) · wo)  — every small
  linear map applied BEFORE the big adjacency product —, the reference  (adj · x) · W0,  (adj · h) · W1,
  (adj · h) · wo.  The two agree whenever every entry is a real number, because then every sum and product stays real
  and matrix multiplication over the reals is associative.
-/
import Idealize.ShloMosaic.PureOps.Ideal
import Idealize.ShloMosaic.Lib.ValueIdx

noncomputable section

namespace Gnn

open Idealize.ShloMosaic Idealize.ShloMosaic.ValueIdx

/-- The matrix product on the extended reals. -/
def mm {n k m : Nat} (a : Fin n → Fin k → EReal) (b : Fin k → Fin m → EReal) : Fin n → Fin m → EReal :=
  fun i j => ∑ l, a i l * b l j

/-- A matrix times a vector. -/
def mv {n k : Nat} (a : Fin n → Fin k → EReal) (v : Fin k → EReal) : Fin n → EReal :=
  fun i => ∑ l, a i l * v l

/-- relu (z + b) of a matrix and a row of biases. -/
def act {n m : Nat} (z : Fin n → Fin m → EReal) (b : Fin m → EReal) : Fin n → Fin m → EReal :=
  fun i c => max (z i c + b c) 0

/-- softplus as both programs spell it: max z 0 + log1p (exp (-|z - 0|)). -/
def splus (z : EReal) : EReal :=
  max z 0 + Ideal.log1p (Ideal.exp (-(max (z - 0) (-(z - 0)))))

/-! ## Arrays and matrices

An array of a rank-2 shape is a function of the shape's index; its matrix reads it at the pair of coordinates. -/

/-- The matrix of a rank-2 array. -/
def mat {n m : Nat} (a : (⟨2, ![n, m]⟩ : Shape).Idx → EReal) : Fin n → Fin m → EReal := fun i j => a (ix2 i j)
/-- The rank-2 array of a matrix. -/
def arr2 {n m : Nat} (f : Fin n → Fin m → EReal) : (⟨2, ![n, m]⟩ : Shape).Idx → EReal := fun i => f (i 0) (i 1)
/-- The one row of a [1, m] array. -/
def row {m : Nat} (a : (⟨2, ![1, m]⟩ : Shape).Idx → EReal) : Fin m → EReal := fun j => a (ix2 0 j)
/-- The one column of an [n, 1] array. -/
def col {n : Nat} (a : (⟨2, ![n, 1]⟩ : Shape).Idx → EReal) : Fin n → EReal := fun i => a (ix2 i 0)
/-- The [n, 1] array of a column. -/
def colArr {n : Nat} (f : Fin n → EReal) : (⟨2, ![n, 1]⟩ : Shape).Idx → EReal := fun i => f (i 0)
/-- The vector of a rank-1 array. -/
def vec {n : Nat} (a : (⟨1, ![n]⟩ : Shape).Idx → EReal) : Fin n → EReal := fun i => a (ix1 i)

theorem mat_arr2 {n m : Nat} (f : Fin n → Fin m → EReal) : mat (arr2 f) = f := rfl
theorem col_colArr {n : Nat} (f : Fin n → EReal) : col (colArr f) = f := rfl

variable {N D H : Nat}

/-- Pass 0 of the kernel: x · W0. -/
def kG0 (x : Fin N → Fin D → EReal) (w0 : Fin D → Fin H → EReal) : Fin N → Fin H → EReal := mm x w0
/-- Pass 1: relu (adj · g0 + b0) · W1. -/
def kG1 {R : Nat} (adj : Fin R → Fin N → EReal) (g0 : Fin N → Fin H → EReal) (b0 : Fin H → EReal) (w1 : Fin H → Fin H → EReal) :
    Fin R → Fin H → EReal := mm (act (mm adj g0) b0) w1
/-- Pass 2: relu (adj · g1 + b1) · wo, the last product a lane sum. -/
def kG2 {R : Nat} (adj : Fin R → Fin N → EReal) (g1 : Fin N → Fin H → EReal) (b1 : Fin H → EReal) (wo : Fin H → EReal) :
    Fin R → EReal := mv (act (mm adj g1) b1) wo
/-- Pass 3: softplus (adj · g2 + bo). -/
def kG3 {R : Nat} (adj : Fin R → Fin N → EReal) (g2 : Fin N → EReal) (bo : EReal) : Fin R → EReal :=
  fun i => splus (mv adj g2 i + bo)

/-- Each pass works row by row: a row of the result reads only the same row of the adjacency operand. So the passes of a
    block of rows are the rows of the passes of the whole matrix. -/
theorem kG1_row {R R' : Nat} (A : Fin R → Fin N → EReal) (A' : Fin R' → Fin N → EReal) (g0 : Fin N → Fin H → EReal)
    (b0 : Fin H → EReal) (w1 : Fin H → Fin H → EReal) (i : Fin R) (i' : Fin R') (h : A i = A' i') :
    kG1 A g0 b0 w1 i = kG1 A' g0 b0 w1 i' := by
  funext c; simp only [kG1, mm, act, h]
theorem kG2_row {R R' : Nat} (A : Fin R → Fin N → EReal) (A' : Fin R' → Fin N → EReal) (g1 : Fin N → Fin H → EReal)
    (b1 : Fin H → EReal) (wo : Fin H → EReal) (i : Fin R) (i' : Fin R') (h : A i = A' i') :
    kG2 A g1 b1 wo i = kG2 A' g1 b1 wo i' := by
  simp only [kG2, mv, mm, act, h]
theorem kG3_row {R R' : Nat} (A : Fin R → Fin N → EReal) (A' : Fin R' → Fin N → EReal) (g2 : Fin N → EReal)
    (bo : EReal) (i : Fin R) (i' : Fin R') (h : A i = A' i') :
    kG3 A g2 bo i = kG3 A' g2 bo i' := by
  simp only [kG3, mv, h]

/-- The kernel, pass after pass. -/
def kern (x : Fin N → Fin D → EReal) (adj : Fin N → Fin N → EReal) (w0 : Fin D → Fin H → EReal) (b0 : Fin H → EReal)
    (w1 : Fin H → Fin H → EReal) (b1 : Fin H → EReal) (wo : Fin H → EReal) (bo : EReal) : Fin N → EReal :=
  kG3 adj (kG2 adj (kG1 adj (kG0 x w0) b0 w1) b1 wo) bo

/-- The reference: aggregate over the graph first, then the linear map. -/
def ref (x : Fin N → Fin D → EReal) (adj : Fin N → Fin N → EReal) (w0 : Fin D → Fin H → EReal) (b0 : Fin H → EReal)
    (w1 : Fin H → Fin H → EReal) (b1 : Fin H → EReal) (wo : Fin H → EReal) (bo : EReal) : Fin N → EReal :=
  fun i => splus (mv (mm adj (act (mm (mm adj (act (mm (mm adj x) w0) b0)) w1) b1)) wo i + bo)

end Gnn

end
-- ==== Proof.LibPlainDot.lean ====
/-
  A matrix product read at an entry.

  A product of an `M × K` by a `K × N` matrix whose dimension numbers contract the left operand's columns with the
  right operand's rows, keep the left rows and the right columns in that order, and have no batch axis. At result
  entry `(i, j)` and contraction position `k` the left operand is read at `(i, k)` and the right at `(k, j)`, and the
  one-axis contraction index set is its coordinate range `Fin K`; so the sum over the contraction index is the
  textbook `∑ q, A i q * B q j`. The same for a stack of `B` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size `K`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent `K`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry `(i, j)` is the matrix product's entry: at contraction position
    `k` with coordinate `q` the left operand is read at `(i, q)` and the right at `(q, j)`, and the positions
    correspond one to one to the coordinates `q : Fin K`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position `k`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at `(i, j)`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at `(i, j)`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent `K`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at `(b, i, j)`, is entry `(i, j)` of the product of the
    two members `b`: at contraction position `k` with coordinate `q` the left stack is read at `(b, i, q)` and the
    right at `(b, q, j)`, and the sum is re-indexed by `q : Fin K`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.Region0.lean ====
/-
  Pass 0 of the kernel, x · W0, as one function of the arrays the region finds.
  The call has no grid: its one point stages both operands whole and writes the product back whole. The body's value
  at (i, j) is the sum over q of x(i, q) · W0(q, j), the change of format before the product being the identity on the
  extended reals.
-/
import proofs.«134197_g86620900426038_cont_sun_m_497_7_alg».proof.Proof.Gen.KernelIdeal.Frame
import proofs.«134197_g86620900426038_cont_sun_m_497_7_alg».proof.Proof.Spec
import proofs.«134197_g86620900426038_cont_sun_m_497_7_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Gnn

-- the buffer contents a region is entered with: any
variable (V : (c : Dev nD) → (b : Ref sig .tc) → Buf (Elt Ideal) ((c : Thread nD τ).loc b))

theorem hz0 : (![0, 0] : Fin 2 → Nat) = fun _ => 0 := funext fun a => by fin_cases a <;> rfl

/-- The body's product at an entry. -/
theorem pay0 (x : Vec Ideal S10000x128 .f32) (w : Vec Ideal S128x64 .f32) :
    k0_pay1 (F := Ideal) x w = arr2 (kG0 (mat x) (mat w)) := by
  funext j
  obtain ⟨i, c, rfl⟩ : ∃ (i : Fin 10000) (c : Fin 64), j = ix2 i c := ⟨j 0, j 1, eq_ix2 j⟩
  unfold k0_pay1
  show FloatOps.matmul dot_S10000x128_S128x64_S10000x64_1_0_0_1_n_n none _ _ (constant S10000x64 .f32 0x00000000#32) (ix2 i c) = _
  rw [Ideal.matmul_constant_zero_apply]
  exact Cert.LibPlainDot.plain_sum dot_S10000x128_S128x64_S10000x64_1_0_0_1_n_n rfl rfl rfl rfl rfl rfl _ _ i c

/-- The call has one point, and at it every window's block index is zero on both axes. -/
theorem idx0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The left operand's block is the whole array. -/
theorem blk0_0 (c : Dev nD) (t : Fin cfg0.N) : (iblk0 V c 0 t : S10000x128.Idx → EReal) = V c main_arg0 := by
  obtain ⟨e0, e1, -, -, -, -⟩ := idx0 t
  funext y
  unfold iblk0
  rw [View.read_apply]
  show V c main_arg0 _ = V c main_arg0 y
  congr 1
  funext a
  apply Fin.ext
  match a with
  | ⟨0, _⟩ => show win0_0.index t (0 : Fin 2) * 10000 + 1 * (y 0).val = (y 0).val; rw [e0]; omega
  | ⟨1, _⟩ => show win0_0.index t (1 : Fin 2) * 128 + 1 * (y 1).val = (y 1).val; rw [e1]; omega

/-- The right operand's block is the whole array. -/
theorem blk0_1 (c : Dev nD) (t : Fin cfg0.N) : (iblk0 V c 1 t : S128x64.Idx → EReal) = V c main_arg2 := by
  obtain ⟨-, -, e0, e1, -, -⟩ := idx0 t
  funext y
  unfold iblk0
  rw [View.read_apply]
  show V c main_arg2 _ = V c main_arg2 y
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 64 + 1 * (y 1).val = (y 1).val; rw [e1]; omega

/-- What the one point writes back is the whole product. -/
theorem flushed0 (c : Dev nD) (t : Fin cfg0.N) :
    (dat0 V c).flushed 2 t
      = ((cfg0.win 2).blk t).view.read (Elt Ideal) (arr2 (kG0 (mat (V c main_arg0)) (mat (V c main_arg2)))) := by
  show (cfg0.win 2).cut (grid0.coords t) ((dat0 V c).after 2 t) = _
  rw [after0_2]
  unfold out0_2
  rw [View.canon_unit_zero hz0]
  simp only [View.ld_unit_zero (S := S10000x128) hz0, View.ld_unit_zero (S := S128x64) hz0]
  rw [pay0, blk0_0, blk0_1]
  obtain ⟨-, -, -, -, e0, e1⟩ := idx0 t
  funext j
  rw [View.read_apply]
  show arr2 (kG0 (mat (V c main_arg0)) (mat (V c main_arg2))) j = arr2 (kG0 (mat (V c main_arg0)) (mat (V c main_arg2))) _
  congr 1
  funext a
  apply Fin.ext
  match a with
  | ⟨0, _⟩ => show (j 0).val = win0_2.index t (0 : Fin 2) * 10000 + 1 * (j 0).val; rw [e0]; omega
  | ⟨1, _⟩ => show (j 1).val = win0_2.index t (1 : Fin 2) * 64 + 1 * (j 1).val; rw [e1]; omega

/-- Every index of the result lies in the one point's block. -/
theorem cover0 (c : Dev nD) (i : S10000x64.Idx) :
    ∃ t : Fin cfg0.N, (cfg0.win 2).flush t = true ∧ i ∈ ((cfg0.win 2).blk t).view.set := by
  refine ⟨t0_0, flush0_2 t0_0, ?_⟩
  obtain ⟨-, -, -, -, e0, e1⟩ := idx0 t0_0
  show i ∈ ((View.whole main_v0).slice (win0_2.rect t0_0)).set
  rw [View.set_slice_whole, Rect.mem_set_unit]
  intro a
  have h0 : (i 0).val < 10000 := (i 0).isLt
  have h1 : (i 1).val < 64 := (i 1).isLt
  match a with
  | ⟨0, _⟩ => show win0_2.index t0_0 (0 : Fin 2) * 10000 ≤ (i 0).val ∧ (i 0).val < win0_2.index t0_0 (0 : Fin 2) * 10000 + 10000; rw [e0]; omega
  | ⟨1, _⟩ => show win0_2.index t0_0 (1 : Fin 2) * 64 ≤ (i 1).val ∧ (i 1).val < win0_2.index t0_0 (1 : Fin 2) * 64 + 64; rw [e1]; omega

/-- Pass 0's result array is x · W0 of the two arrays the region finds. -/
theorem final0 (c : Dev nD) :
    (dat0 V c).arrAt 2 cfg0.N = arr2 (kG0 (mat (V c main_arg0)) (mat (V c main_arg2))) :=
  (dat0 V c).arrAt_eq_of_cover 2 _ (fun t _ => flushed0 V c t) (cover0 c)

end Cert.KernelIdeal.Val

end
-- ==== Proof.Region1.lean ====
/-
  Pass 1 of the kernel, relu (adj · g0 + b0) · W1, as one function of the arrays the region finds.
  The grid has fifty points; point t stages rows 200 t … 200 t + 199 of the adjacency matrix, and the projected
  features g0, the bias row b0 and W1 whole, and writes rows 200 t … 200 t + 199 of the result. Row r of the result reads
  row r of the adjacency matrix only (and all of the three whole operands), so the rows a point writes are the same rows
  of the one function of the whole arrays; the fifty blocks of 200 rows tile the 10000 rows, row r lying in block
  r / 200. On the extended reals the change of format is the identity, and a block product into a zero accumulator is
  the plain sum of products.
-/
import proofs.«134197_g86620900426038_cont_sun_m_497_7_alg».proof.Proof.Gen.KernelIdeal.Frame
import proofs.«134197_g86620900426038_cont_sun_m_497_7_alg».proof.Proof.Spec
import proofs.«134197_g86620900426038_cont_sun_m_497_7_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Gnn

-- the buffer contents a region is entered with: any
variable (V : (c : Dev nD) → (b : Ref sig .tc) → Buf (Elt Ideal) ((c : Thread nD τ).loc b))

theorem hz1 : (![0, 0] : Fin 2 → Nat) = fun _ => 0 := funext fun a => by fin_cases a <;> rfl

/-! ## The body as a function of its blocks -/

/-- The adjacency block times the projected features, at an entry: the plain sum over the 10000 nodes. -/
theorem adjProd1 (a : Vec Ideal S200x10000 .f32) (g : Vec Ideal S10000x64 .f32) (i : Fin 200) (q : Fin 64) :
    FloatOps.matmul dot_S200x10000_S10000x64_S200x64_1_0_0_1_n_n none (k1_pay1 (F := Ideal) a)
        (truncf .bf16 (shapeCast S10000x64 g shapeCasts_S10000x64_S10000x64) bitsLt_bf16_f32)
        (constant (F := Ideal) S200x64 .f32 0x00000000#32) (ix2 i q)
      = ∑ k : Fin 10000, a (ix2 i k) * g (ix2 k q) := by
  rw [Ideal.matmul_constant_zero_apply]
  refine (Cert.LibPlainDot.plain_sum dot_S200x10000_S10000x64_S200x64_1_0_0_1_n_n rfl rfl rfl rfl rfl rfl _ _ i q).trans ?_
  refine Finset.sum_congr rfl fun k _ => ?_
  rw [shapeCast_self]
  rfl

/-- The bias row, stretched over the 200 rows, read at an entry. -/
theorem biasRow1 (b : Vec Ideal S1x64 .f32) (i : Fin 200) (q : Fin 64) :
    broadcastTo S200x64 (shapeCast S1x64 b shapeCasts_S1x64_S1x64) broadcasts_S1x64_S200x64 (ix2 i q) = b (ix2 0 q) := by
  rw [shapeCast_self]
  exact broadcastTo_1b_ab_apply b _ i q

/-- The body's value at an entry: two plain products, the bias row added to every row, the negative part cut off. -/
theorem pay1_2 (a : Vec Ideal S200x10000 .f32) (g : Vec Ideal S10000x64 .f32) (b : Vec Ideal S1x64 .f32)
    (w : Vec Ideal S64x64 .f32) :
    k1_pay2 (F := Ideal) a g b w = arr2 (kG1 (mat a) (mat g) (row b) (mat w)) := by
  funext j
  obtain ⟨i, c, rfl⟩ : ∃ (i : Fin 200) (c : Fin 64), j = ix2 i c := ⟨j 0, j 1, eq_ix2 j⟩
  unfold k1_pay2
  show FloatOps.matmul dot_S200x64_S64x64_S200x64_1_0_0_1_n_n none _ _ (constant S200x64 .f32 0x00000000#32) (ix2 i c) = _
  rw [Ideal.matmul_constant_zero_apply]
  refine (Cert.LibPlainDot.plain_sum dot_S200x64_S64x64_S200x64_1_0_0_1_n_n rfl rfl rfl rfl rfl rfl _ _ i c).trans ?_
  show _ = ∑ q : Fin 64, max ((∑ k : Fin 10000, a (ix2 i k) * g (ix2 k q)) + b (ix2 0 q)) 0 * w (ix2 q c)
  refine Finset.sum_congr rfl fun q _ => ?_
  show max (FloatOps.matmul _ none _ _ _ (ix2 i q) + broadcastTo S200x64 _ _ (ix2 i q)) (Ideal.ofBits .f32 0x00000000#32)
      * w (ix2 q c) = _
  rw [adjProd1, biasRow1, Ideal.ofBits_zero_f32]

/-! ## The blocks as parts of the arrays -/

/-- The index maps over the grid: the adjacency operand and the result move down one block of rows per point; the three
    other operands stay at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (r, k) of the adjacency block at point t is entry (200 t + r, k) of the adjacency matrix. -/
theorem blk1_0 (c : Dev nD) (t : Fin cfg1.N) (y : S200x10000.Idx) (k : S10000x10000.Idx)
    (h0 : (k 0).val = t.val * 200 + (y 0).val) (h1 : (k 1).val = (y 1).val) :
    (iblk1 V c 0 t : S200x10000.Idx → EReal) y = V c main_arg1 k := by
  obtain ⟨e0, e1, -⟩ := idx1 t
  unfold iblk1
  rw [View.read_apply]
  show V c main_arg1 _ = V c main_arg1 k
  congr 1
  funext a
  apply Fin.ext
  match a with
  | ⟨0, _⟩ => show win1_0.index t (0 : Fin 2) * 200 + 1 * (y 0).val = (k 0).val; rw [e0, h0]; omega
  | ⟨1, _⟩ => show win1_0.index t (1 : Fin 2) * 10000 + 1 * (y 1).val = (k 1).val; rw [e1, h1]; omega

/-- The block of the projected features is the whole array. -/
theorem blk1_1 (c : Dev nD) (t : Fin cfg1.N) : (iblk1 V c 1 t : S10000x64.Idx → EReal) = V c main_v0 := by
  obtain ⟨-, -, e0, e1, -⟩ := idx1 t
  funext y
  unfold iblk1
  rw [View.read_apply]
  show V c main_v0 _ = V c main_v0 y
  congr 1
  funext a
  apply Fin.ext
  match a with
  | ⟨0, _⟩ => show win1_1.index t (0 : Fin 2) * 10000 + 1 * (y 0).val = (y 0).val; rw [e0]; omega
  | ⟨1, _⟩ => show win1_1.index t (1 : Fin 2) * 64 + 1 * (y 1).val = (y 1).val; rw [e1]; omega

/-- The block of the bias row is the whole row. -/
theorem blk1_2 (c : Dev nD) (t : Fin cfg1.N) : (iblk1 V c 2 t : S1x64.Idx → EReal) = V c main_v1 := by
  obtain ⟨-, -, -, -, e0, e1, -⟩ := idx1 t
  funext y
  unfold iblk1
  rw [View.read_apply]
  show V c main_v1 _ = V c main_v1 y
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- The block of W1 is the whole matrix. -/
theorem blk1_3 (c : Dev nD) (t : Fin cfg1.N) : (iblk1 V c 3 t : S64x64.Idx → EReal) = V c main_arg4 := by
  obtain ⟨-, -, -, -, -, -, e0, e1, -⟩ := idx1 t
  funext y
  unfold iblk1
  rw [View.read_apply]
  show V c main_arg4 _ = V c main_arg4 y
  congr 1
  funext a
  apply Fin.ext
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- Pass 1 of a block of rows is the same rows of pass 1 of the whole matrix. -/
theorem kG1_block (A : Fin 10000 → Fin 10000 → EReal) (B : Fin 200 → Fin 10000 → EReal) (g0 : Fin 10000 → Fin 64 → EReal)
    (b0 : Fin 64 → EReal) (w1 : Fin 64 → Fin 64 → EReal) (r : Fin 200) (r' : Fin 10000) (q q' : Fin 64)
    (hr : B r = A r') (hq : q = q') : kG1 B g0 b0 w1 r q = kG1 A g0 b0 w1 r' q' := by
  subst hq
  exact congrFun (kG1_row B A g0 b0 w1 r r' hr) q

/-! ## What a point writes back -/

/-- Point t writes back rows 200 t … 200 t + 199 of pass 1 of the whole arrays. -/
theorem flushed1_4 (c : Dev nD) (t : Fin cfg1.N) :
    (dat1 V c).flushed 4 t
      = ((cfg1.win 4).blk t).view.read (Elt Ideal)
          (arr2 (kG1 (mat (V c main_arg1)) (mat (V c main_v0)) (row (V c main_v1)) (mat (V c main_arg4)))) := by
  show (cfg1.win 4).cut (grid1.coords t) ((dat1 V c).after 4 t) = _
  rw [after1_4]
  unfold out1_4
  rw [View.canon_unit_zero hz1]
  simp only [View.ld_unit_zero (S := S200x10000) hz1, View.ld_unit_zero (S := S10000x64) hz1,
    View.ld_unit_zero (S := S1x64) hz1, View.ld_unit_zero (S := S64x64) hz1]
  rw [pay1_2, blk1_1, blk1_2, blk1_3]
  obtain ⟨-, -, -, -, -, -, -, -, e0, e1⟩ := idx1 t
  funext j
  rw [View.read_apply]
  show kG1 (mat (iblk1 V c 0 t : S200x10000.Idx → EReal)) (mat (V c main_v0)) (row (V c main_v1)) (mat (V c main_arg4))
        (⟨(j 0).val, (j 0).isLt⟩ : Fin 200) (⟨(j 1).val, (j 1).isLt⟩ : Fin 64)
      = kG1 (mat (V c main_arg1 : S10000x10000.Idx → EReal)) (mat (V c main_v0)) (row (V c main_v1)) (mat (V c main_arg4))
        ((((cfg1.win 4).blk t).view.emb j 0 : Fin 10000)) ((((cfg1.win 4).blk t).view.emb j 1 : Fin 64))
  refine kG1_block _ _ _ _ _ _ _ _ _ (funext fun k => ?_) (Fin.ext ?_)
  · refine blk1_0 V c t _ _ ?_ rfl
    show win1_4.index t (0 : Fin 2) * 200 + 1 * (j 0).val = t.val * 200 + (j 0).val
    rw [e0]; omega
  · show (j 1).val = win1_4.index t (1 : Fin 2) * 64 + 1 * (j 1).val
    rw [e1]; omega

/-! ## The blocks tile the array -/

/-- Row r of the result lies in the block of point r / 200. -/
theorem covered1_4 (i : S10000x64.Idx) :
    ∃ t : Fin cfg1.N, (cfg1.win 4).flush t = true ∧ i ∈ ((cfg1.win 4).blk t).view.set := by
  have hN : grid1.N = 50 := N_1
  have h0 : (i 0).val < 10000 := (i 0).isLt
  have h1 : (i 1).val < 64 := (i 1).isLt
  obtain ⟨t, ht⟩ : ∃ t : Fin cfg1.N, t.val = (i 0).val / 200 :=
    ⟨⟨(i 0).val / 200, by show (i 0).val / 200 < grid1.N; rw [hN]; omega⟩, rfl⟩
  obtain ⟨-, -, -, -, -, -, -, -, e0, e1⟩ := idx1 t
  refine ⟨t, flush1_4 t, ?_⟩
  show i ∈ ((View.whole main_v2_0).slice (win1_4.rect t)).set
  rw [View.set_slice_whole, Rect.mem_set_unit]
  intro a
  match a with
  | ⟨0, _⟩ =>
    show win1_4.index t (0 : Fin 2) * 200 ≤ (i 0).val ∧ (i 0).val < win1_4.index t (0 : Fin 2) * 200 + 200
    rw [e0, ht]; omega
  | ⟨1, _⟩ =>
    show win1_4.index t (1 : Fin 2) * 64 ≤ (i 1).val ∧ (i 1).val < win1_4.index t (1 : Fin 2) * 64 + 64
    rw [e1]; omega

/-! ## The array the pass leaves -/

/-- Pass 1's first result is relu (adj · g0 + b0) · W1 of the arrays the region finds. -/
theorem final1_4 (c : Dev nD) : (dat1 V c).arrAt 4 cfg1.N
    = arr2 (kG1 (mat (V c main_arg1)) (mat (V c main_v0)) (row (V c main_v1)) (mat (V c main_arg4))) :=
  (dat1 V c).arrAt_eq_of_cover 4 _ (fun t _ => flushed1_4 V c t) covered1_4

end Cert.KernelIdeal.Val

end
-- ==== Proof.Region1Copy.lean ====
/-
  Beside pass 1 the kernel writes a copy of the adjacency matrix in the narrower format: point t of the fifty stages rows
  200 t … 200 t + 199 of the matrix and writes the same rows of the copy. On the extended reals the change of format is
  the identity, so the copy is the matrix; the fifty blocks of 200 rows tile the 10000 rows, row r lying in block r / 200.
-/
import proofs.«134197_g86620900426038_cont_sun_m_497_7_alg».proof.Proof.Gen.KernelIdeal.Frame
import proofs.«134197_g86620900426038_cont_sun_m_497_7_alg».proof.Proof.Spec
import proofs.«134197_g86620900426038_cont_sun_m_497_7_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Gnn

-- the buffer contents a region is entered with: any
variable (V : (c : Dev nD) → (b : Ref sig .tc) → Buf (Elt Ideal) ((c : Thread nD τ).loc b))

theorem hzCopy1 : (![0, 0] : Fin 2 → Nat) = fun _ => 0 := funext fun a => by fin_cases a <;> rfl

/-- The change of format is the identity on the extended reals. -/
theorem pay1_1 (a : Vec Ideal S200x10000 .f32) : k1_pay1 (F := Ideal) a = a := by
  funext j; rfl

/-- The index maps over the grid: the adjacency operand and its copy move down one block of rows per point. -/
theorem idxCopy1 : ∀ t : Fin cfg1.N,
    win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

/-- Entry (r, k) of the adjacency block at point t is entry (200 t + r, k) of the adjacency matrix. -/
theorem blkCopy1_0 (c : Dev nD) (t : Fin cfg1.N) (y : S200x10000.Idx) (k : S10000x10000.Idx)
    (h0 : (k 0).val = t.val * 200 + (y 0).val) (h1 : (k 1).val = (y 1).val) :
    (iblk1 V c 0 t : S200x10000.Idx → EReal) y = V c main_arg1 k := by
  obtain ⟨e0, e1, -⟩ := idxCopy1 t
  unfold iblk1
  rw [View.read_apply]
  show V c main_arg1 _ = V c main_arg1 k
  congr 1
  funext a
  apply Fin.ext
  match a with
  | ⟨0, _⟩ => show win1_0.index t (0 : Fin 2) * 200 + 1 * (y 0).val = (k 0).val; rw [e0, h0]; omega
  | ⟨1, _⟩ => show win1_0.index t (1 : Fin 2) * 10000 + 1 * (y 1).val = (k 1).val; rw [e1, h1]; omega

/-- Point t writes back rows 200 t … 200 t + 199 of the adjacency matrix itself. -/
theorem flushed1_5 (c : Dev nD) (t : Fin cfg1.N) :
    (dat1 V c).flushed 5 t
      = ((cfg1.win 5).blk t).view.read (Elt Ideal) (V c main_arg1 : S10000x10000.Idx → EReal) := by
  show (cfg1.win 5).cut (grid1.coords t) ((dat1 V c).after 5 t) = _
  rw [after1_5]
  unfold out1_5
  rw [View.canon_unit_zero hzCopy1]
  simp only [View.ld_unit_zero (S := S200x10000) hzCopy1]
  rw [pay1_1]
  obtain ⟨-, -, e0, e1⟩ := idxCopy1 t
  funext j
  rw [View.read_apply]
  show (iblk1 V c 0 t : S200x10000.Idx → EReal) (fun a => ⟨(j a).val, (j a).isLt⟩)
      = V c main_arg1 (((cfg1.win 5).blk t).view.emb j)
  refine blkCopy1_0 V c t _ _ ?_ ?_
  · show win1_5.index t (0 : Fin 2) * 200 + 1 * (j 0).val = t.val * 200 + (j 0).val
    rw [e0]; omega
  · show win1_5.index t (1 : Fin 2) * 10000 + 1 * (j 1).val = (j 1).val
    rw [e1]; omega

/-- Row r of the copy lies in the block of point r / 200. -/
theorem covered1_5 (i : S10000x10000.Idx) :
    ∃ t : Fin cfg1.N, (cfg1.win 5).flush t = true ∧ i ∈ ((cfg1.win 5).blk t).view.set := by
  have hN : grid1.N = 50 := N_1
  have h0 : (i 0).val < 10000 := (i 0).isLt
  have h1 : (i 1).val < 10000 := (i 1).isLt
  obtain ⟨t, ht⟩ : ∃ t : Fin cfg1.N, t.val = (i 0).val / 200 :=
    ⟨⟨(i 0).val / 200, by show (i 0).val / 200 < grid1.N; rw [hN]; omega⟩, rfl⟩
  obtain ⟨-, -, e0, e1⟩ := idxCopy1 t
  refine ⟨t, flush1_5 t, ?_⟩
  show i ∈ ((View.whole main_v2_1).slice (win1_5.rect t)).set
  rw [View.set_slice_whole, Rect.mem_set_unit]
  intro a
  match a with
  | ⟨0, _⟩ =>
    show win1_5.index t (0 : Fin 2) * 200 ≤ (i 0).val ∧ (i 0).val < win1_5.index t (0 : Fin 2) * 200 + 200
    rw [e0, ht]; omega
  | ⟨1, _⟩ =>
    show win1_5.index t (1 : Fin 2) * 10000 ≤ (i 1).val ∧ (i 1).val < win1_5.index t (1 : Fin 2) * 10000 + 10000
    rw [e1]; omega

/-- Pass 1's second result, the adjacency matrix in the narrower format, is the adjacency matrix. -/
theorem final1_5 (c : Dev nD) : (dat1 V c).arrAt 5 cfg1.N = (V c main_arg1 : S10000x10000.Idx → EReal) :=
  (dat1 V c).arrAt_eq_of_cover 5 _ (fun t _ => flushed1_5 V c t) covered1_5

end Cert.KernelIdeal.Val

end
-- ==== Proof.Region2.lean ====
/-
  The third pass of the graph network, read off the program.  One grid point takes a block of 1000 rows of the
  adjacency matrix, multiplies it into the whole 10000 x 64 feature matrix, adds the row of biases, clips at zero,
  scales column c by the output weight wo c and sums the 64 columns of each row: entry i of the block's result is
  kG2 at row i.  An entry of the output column therefore depends on ONE row of the adjacency matrix, the same row, and
  on all of the three small operands.  Point t reads rows 1000 t .. 1000 t + 999 and writes the same rows of the
  [10000, 1] output; the ten points' row ranges are disjoint and exhaust the 10000 rows, so the blocks tile the array and
  the array ends as the column of kG2 of the whole adjacency matrix.
-/
import proofs.«134197_g86620900426038_cont_sun_m_497_7_alg».proof.Proof.Gen.KernelIdeal.Frame
import proofs.«134197_g86620900426038_cont_sun_m_497_7_alg».proof.Proof.Spec
import proofs.«134197_g86620900426038_cont_sun_m_497_7_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Gnn

-- the buffer contents a region is entered with: any
variable (V : (c : Dev nD) → (b : Ref sig .tc) → Buf (Elt Ideal) ((c : Thread nD τ).loc b))

/-! ## The body's arithmetic as a function of its four loaded blocks -/

/-- A vector of length n viewed as an [n, 1] column reads entry i at (i, 0): the two have the same row-major
    position. -/
theorem columnCast2 {n : Nat} {α : Type} (x : (⟨1, ![n]⟩ : Shape).Idx → α)
    (h : (⟨1, ![n]⟩ : Shape).ShapeCasts ⟨2, ![n, 1]⟩) (i : Fin n) (z : Fin 1) :
    shapeCast ⟨2, ![n, 1]⟩ x h (ix2 i z) = x (ix1 i) := by
  refine shapeCast_apply x h (ix2 i z) (ix1 i) ?_
  rw [Shape.rowMajor_val_one, Shape.rowMajor_val_two]
  show i.val = i.val * 1 + z.val
  have := z.isLt
  omega

/-- The index a lane sum inserts: row i, lane k. -/
theorem laneIndex2 (i : Fin 1000) (k : Fin 64) : reduces_S1000x64_S1000.lift (ix1 i) k = ix2 i k :=
  funext fun d => Fin.ext (by match d with | ⟨0, _⟩ => rfl | ⟨1, _⟩ => rfl)

/-- The body's value: at row i of the block, the sum over the 64 lanes c of relu (A i . g c + b c) * wo c. -/
theorem pay2 (a : Vec Ideal S1000x10000 .bf16) (g : Vec Ideal S10000x64 .f32) (b : Vec Ideal S1x64 .f32)
    (w : Vec Ideal S1x64 .f32) :
    k2_pay1 (F := Ideal) a g b w = colArr (kG2 (mat a) (mat g) (row b) (row w)) := by
  funext j
  obtain ⟨i, z, rfl⟩ : ∃ (i : Fin 1000) (z : Fin 1), j = ix2 i z := ⟨j 0, j 1, eq_ix2 j⟩
  unfold k2_pay1
  refine (columnCast2 _ _ i z).trans ?_
  refine (Ideal.multiReduction_add_single _ _ _ _ _ (ix1 i)).trans ?_
  show _ = ∑ l : Fin 64, max ((∑ q : Fin 10000, a (ix2 i q) * g (ix2 q l)) + b (ix2 0 l)) 0 * w (ix2 0 l)
  refine Finset.sum_congr rfl fun k _ => ?_
  refine (congrArg _ (laneIndex2 i k)).trans ?_
  refine congrArg₂ (· * ·) ?_ ?_
  · refine congrArg₂ max ?_ Ideal.ofBits_zero_f32
    refine congrArg₂ (· + ·) ?_ ?_
    · refine (Ideal.matmul_constant_zero_apply dot_S1000x10000_S10000x64_S1000x64_1_0_0_1_n_n none _ _ (ix2 i k)).trans ?_
      refine (Cert.LibPlainDot.plain_sum dot_S1000x10000_S10000x64_S1000x64_1_0_0_1_n_n rfl rfl rfl rfl rfl rfl _ _ i k).trans ?_
      refine Finset.sum_congr rfl fun q _ => ?_
      exact congrArg₂ (· * ·) (congrFun (shapeCast_self a _) (ix2 i q)) (congrFun (shapeCast_self g _) (ix2 q k))
    · exact (broadcastTo_1b_ab_apply _ _ i k).trans (congrFun (shapeCast_self b _) (ix2 0 k))
  · exact (broadcastTo_1b_ab_apply _ _ i k).trans (congrFun (shapeCast_self w _) (ix2 0 k))

/-! ## The blocks a point works on -/

theorem hz2 : (![0, 0] : Fin 2 → Nat) = fun _ => 0 := funext fun a => by fin_cases a <;> rfl

/-- The index maps over the ten points: the adjacency window and the output window are at row block t, column block 0;
    the three small operands are staged whole. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row r of point t's adjacency block is row 1000 t + r of the adjacency array. -/
theorem blk2_0_row (c : Dev nD) (t : Fin cfg2.N) (r : Fin 1000) (r' : Fin 10000) (h : r'.val = t.val * 1000 + r.val) :
    mat (iblk2 V c 0 t : S1000x10000.Idx → EReal) r = mat (V c main_v2_1 : S10000x10000.Idx → EReal) r' := by
  obtain ⟨e0, e1, -⟩ := idx2 t
  funext q
  show (iblk2 V c 0 t : S1000x10000.Idx → EReal) (ix2 r q) = V c main_v2_1 (ix2 r' q)
  unfold iblk2
  rw [View.read_apply]
  show V c main_v2_1 _ = V c main_v2_1 (ix2 r' q)
  congr 1
  funext a
  apply Fin.ext
  match a with
  | ⟨0, _⟩ => show win2_0.index t (0 : Fin 2) * 1000 + 1 * r.val = r'.val; rw [e0, h]; omega
  | ⟨1, _⟩ => show win2_0.index t (1 : Fin 2) * 10000 + 1 * q.val = q.val; rw [e1]; omega

/-- The feature matrix is staged whole. -/
theorem blk2_1 (c : Dev nD) (t : Fin cfg2.N) : (iblk2 V c 1 t : S10000x64.Idx → EReal) = V c main_v2_0 := by
  obtain ⟨-, -, e0, e1, -⟩ := idx2 t
  funext y
  unfold iblk2
  rw [View.read_apply]
  show V c main_v2_0 _ = V c main_v2_0 y
  congr 1
  funext a
  apply Fin.ext
  match a with
  | ⟨0, _⟩ => show win2_1.index t (0 : Fin 2) * 10000 + 1 * (y 0).val = (y 0).val; rw [e0]; omega
  | ⟨1, _⟩ => show win2_1.index t (1 : Fin 2) * 64 + 1 * (y 1).val = (y 1).val; rw [e1]; omega

/-- The row of biases is staged whole. -/
theorem blk2_2 (c : Dev nD) (t : Fin cfg2.N) : (iblk2 V c 2 t : S1x64.Idx → EReal) = V c main_v3 := by
  obtain ⟨-, -, -, -, e0, e1, -⟩ := idx2 t
  funext y
  unfold iblk2
  rw [View.read_apply]
  show V c main_v3 _ = V c main_v3 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- The row of output weights is staged whole. -/
theorem blk2_3 (c : Dev nD) (t : Fin cfg2.N) : (iblk2 V c 3 t : S1x64.Idx → EReal) = V c main_v4 := by
  obtain ⟨-, -, -, -, -, -, e0, e1, -⟩ := idx2 t
  funext y
  unfold iblk2
  rw [View.read_apply]
  show V c main_v4 _ = V c main_v4 y
  congr 1
  funext a
  apply Fin.ext
  match a with
  | ⟨0, _⟩ => show win2_3.index t (0 : Fin 2) * 1 + 1 * (y 0).val = (y 0).val; rw [e0]; omega
  | ⟨1, _⟩ => show win2_3.index t (1 : Fin 2) * 64 + 1 * (y 1).val = (y 1).val; rw [e1]; omega

/-! ## From the blocks to the array -/

/-- What point t writes back is rows 1000 t .. 1000 t + 999 of the column of kG2 of the WHOLE adjacency matrix: a row of
    the result reads only that row of the adjacency operand. -/
theorem flushed2 (c : Dev nD) (t : Fin cfg2.N) :
    (dat2 V c).flushed 4 t
      = ((cfg2.win 4).blk t).view.read (Elt Ideal)
          (colArr (kG2 (mat (V c main_v2_1)) (mat (V c main_v2_0)) (row (V c main_v3)) (row (V c main_v4)))) := by
  show (cfg2.win 4).cut (grid2.coords t) ((dat2 V c).after 4 t) = _
  rw [after2_4]
  unfold out2_4
  rw [View.canon_unit_zero hz2]
  simp only [View.ld_unit_zero (S := S1000x10000) hz2, View.ld_unit_zero (S := S10000x64) hz2,
    View.ld_unit_zero (S := S1x64) hz2]
  rw [pay2, blk2_1, blk2_2, blk2_3]
  obtain ⟨-, -, -, -, -, -, -, -, e0, e1⟩ := idx2 t
  funext j
  rw [View.read_apply]
  show kG2 (mat (iblk2 V c 0 t : S1000x10000.Idx → EReal)) (mat (V c main_v2_0)) (row (V c main_v3)) (row (V c main_v4)) (j 0)
    = kG2 (mat (V c main_v2_1)) (mat (V c main_v2_0)) (row (V c main_v3)) (row (V c main_v4)) (((cfg2.win 4).blk t).view.emb j 0)
  refine kG2_row _ _ _ _ _ _ _ (blk2_0_row V c t (j 0) _ ?_)
  show win2_4.index t (0 : Fin 2) * 1000 + 1 * (j 0).val = t.val * 1000 + (j 0).val
  rw [e0]; omega

/-- Row i of the output lies in the block of point i / 1000: the ten row ranges exhaust the 10000 rows. -/
theorem cover2 (i : S10000x1.Idx) :
    ∃ t : Fin cfg2.N, (cfg2.win 4).flush t = true ∧ i ∈ ((cfg2.win 4).blk t).view.set := by
  have h0 : (i 0).val < 10000 := (i 0).isLt
  have h1 : (i 1).val < 1 := (i 1).isLt
  have hN : grid2.N = 10 := N_2
  obtain ⟨t, ht⟩ : ∃ t : Fin cfg2.N, t.val = (i 0).val / 1000 :=
    ⟨⟨(i 0).val / 1000, by show (i 0).val / 1000 < grid2.N; rw [hN]; omega⟩, rfl⟩
  refine ⟨t, flush2_4 t, ?_⟩
  obtain ⟨-, -, -, -, -, -, -, -, e0, e1⟩ := idx2 t
  show i ∈ ((View.whole main_v5).slice (win2_4.rect t)).set
  rw [View.set_slice_whole, Rect.mem_set_unit]
  intro a
  match a with
  | ⟨0, _⟩ => show win2_4.index t (0 : Fin 2) * 1000 ≤ (i 0).val ∧ (i 0).val < win2_4.index t (0 : Fin 2) * 1000 + 1000; rw [e0, ht]; omega
  | ⟨1, _⟩ => show win2_4.index t (1 : Fin 2) * 1 ≤ (i 1).val ∧ (i 1).val < win2_4.index t (1 : Fin 2) * 1 + 1; rw [e1]; omega

/-- Pass 2's result array is the column of kG2 of the arrays the region finds. -/
theorem final2 (c : Dev nD) : (dat2 V c).arrAt 4 cfg2.N
    = colArr (kG2 (mat (V c main_v2_1)) (mat (V c main_v2_0)) (row (V c main_v3)) (row (V c main_v4))) :=
  (dat2 V c).arrAt_eq_of_cover 4 _ (fun t _ => flushed2 V c t) cover2

end Cert.KernelIdeal.Val

end
-- ==== Proof.Region3.lean ====
/-
  Pass 3 of the kernel, softplus (adj · g + bo), as one function of the arrays the region finds.
  The call runs over ten points. Point t stages rows 1000 t … 1000 t + 999 of the adjacency array, the column g and the
  one-entry bias whole, and writes back rows 1000 t … 1000 t + 999 of the result column. Entry r of the result is
  softplus (∑ k, adj(r, k) · g(k) + bo): it depends on row r of the adjacency array only, so what a point computes from
  its block of rows is the same rows of the pass over the whole array. The change of format before the product is the
  identity on the extended reals; the printed softplus selects on a comparison of a value with itself for inequality,
  which is false, so it is max z 0 + log1p (exp (-|z|)) at every element. The ten row blocks of 1000 rows tile the
  10000 rows: row r lies in the block of point r / 1000.
-/
import proofs.«134197_g86620900426038_cont_sun_m_497_7_alg».proof.Proof.Gen.KernelIdeal.Frame
import proofs.«134197_g86620900426038_cont_sun_m_497_7_alg».proof.Proof.Spec
import proofs.«134197_g86620900426038_cont_sun_m_497_7_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Val

open Cert.KernelIdeal Cert.KernelIdeal.Gen Gnn

-- the buffer contents a region is entered with: any
variable (V : (c : Dev nD) → (b : Ref sig .tc) → Buf (Elt Ideal) ((c : Thread nD τ).loc b))

theorem hz3 : (![0, 0] : Fin 2 → Nat) = fun _ => 0 := funext fun a => by fin_cases a <;> rfl

section Pointwise
variable {s : Shape} {φ : FTy}
theorem k3_exp_at (x : FVec Ideal s φ) (i : s.Idx) : exp x i = Ideal.exp (x i) := rfl
theorem k3_log1p_at (x : FVec Ideal s φ) (i : s.Idx) : log1p x i = Ideal.log1p (x i) := rfl
theorem k3_absf_at (x : FVec Ideal s φ) (i : s.Idx) : absf x i = max (x i) (-(x i)) := rfl
end Pointwise

/-- The printed softplus at one element: the comparison of a value with itself for inequality is false, so the
    select takes its second branch, and 0 - a = -a. -/
theorem k3_softplus_at (z : EReal) :
    Scalar.select (Ideal.cmp .one (z - 0) (z - 0)) (z + 0)
        (max z 0 + Ideal.log1p (Ideal.exp (0 - max (z - 0) (-(z - 0))))) = splus z := by
  have h : Ideal.cmp .one (z - 0) (z - 0) = 0#1 := by simp [Ideal.cmp]
  rw [h, select_zero, zero_sub]
  rfl

theorem pay3 (a : Vec Ideal S1000x10000 .bf16) (g : Vec Ideal S10000x1 .f32) (b : Vec Ideal S1x1 .f32) :
    k3_pay1 (F := Ideal) a g b = colArr (kG3 (mat a) (col g) (b (ix2 0 0))) := by
  funext j
  obtain ⟨i, c', rfl⟩ : ∃ (i : Fin 1000) (c' : Fin 1), j = ix2 i c' := ⟨j 0, j 1, eq_ix2 j⟩
  obtain rfl : c' = 0 := Subsingleton.elim _ _
  have hm : (matmul (F := Ideal) (φ₁ := .bf16) dot_S1000x10000_S10000x1_S1000x1_1_0_0_1_n_n none a (truncf .bf16 g bitsLt_bf16_f32)
      (constant S1000x1 .f32 0x00000000#32) (ix2 i 0) : EReal)
      = ∑ q : Fin 10000, (a (ix2 i q) : EReal) * (g (ix2 q 0) : EReal) := by
    show (FloatOps.matmul (F := Ideal) (φ₁ := .bf16) dot_S1000x10000_S10000x1_S1000x1_1_0_0_1_n_n none a (truncf .bf16 g bitsLt_bf16_f32)
      (constant S1000x1 .f32 0x00000000#32) (ix2 i 0) : EReal) = _
    rw [Ideal.matmul_constant_zero_apply]
    exact Cert.LibPlainDot.plain_sum dot_S1000x10000_S10000x1_S1000x1_1_0_0_1_n_n rfl rfl rfl rfl rfl rfl _ _ i 0
  have hb : broadcastTo S1000x1 b broadcasts_S1x1_S1000x1 (ix2 i 0) = b (ix2 0 0) := by
    refine broadcastTo_apply b _ _ _ fun d => ?_
    match d with
    | ⟨0, _⟩ => rfl
    | ⟨1, _⟩ => rfl
  unfold k3_pay1
  simp only [select_apply, cmpf_apply, addf_apply, subf_apply, maximumf_apply, broadcast_apply, shapeCast_self,
    k3_exp_at, k3_log1p_at, k3_absf_at, hm, hb, Ideal.cmpf_def, Scalar.ofBits, Ideal.ofBits_def, Ideal.ofBits_zero_f32]
  exact k3_softplus_at _

/-- The index maps over the ten points: the adjacency window and the result window take row block t, the two small
    operands their one block. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- An entry of the adjacency window's block at point t: row 1000 t + r of the array, same column. -/
theorem blk3_0 (c : Dev nD) (t : Fin cfg3.N) (y : S1000x10000.Idx) (k : S10000x10000.Idx)
    (hk0 : (k 0).val = t.val * 1000 + (y 0).val) (hk1 : (k 1).val = (y 1).val) :
    (iblk3 V c 0 t : S1000x10000.Idx → EReal) y = V c main_v2_1 k := by
  obtain ⟨e0, e1, -, -, -, -, -, -⟩ := idx3 t
  unfold iblk3
  rw [View.read_apply]
  show V c main_v2_1 _ = V c main_v2_1 k
  congr 1
  funext a
  apply Fin.ext
  match a with
  | ⟨0, _⟩ => show win3_0.index t (0 : Fin 2) * 1000 + 1 * (y 0).val = (k 0).val; rw [e0, hk0]; omega
  | ⟨1, _⟩ => show win3_0.index t (1 : Fin 2) * 10000 + 1 * (y 1).val = (k 1).val; rw [e1, hk1]; omega

/-- The column operand's block is the whole array. -/
theorem blk3_1 (c : Dev nD) (t : Fin cfg3.N) : (iblk3 V c 1 t : S10000x1.Idx → EReal) = V c main_v5 := by
  obtain ⟨-, -, e0, e1, -, -, -, -⟩ := idx3 t
  funext y
  unfold iblk3
  rw [View.read_apply]
  show V c main_v5 _ = V c main_v5 y
  congr 1
  funext a
  apply Fin.ext
  match a with
  | ⟨0, _⟩ => show win3_1.index t (0 : Fin 2) * 10000 + 1 * (y 0).val = (y 0).val; rw [e0]; omega
  | ⟨1, _⟩ => show win3_1.index t (1 : Fin 2) * 1 + 1 * (y 1).val = (y 1).val; rw [e1]; omega

/-- The bias operand's block is the whole array. -/
theorem blk3_2 (c : Dev nD) (t : Fin cfg3.N) : (iblk3 V c 2 t : S1x1.Idx → EReal) = V c main_v6 := by
  obtain ⟨-, -, -, -, e0, e1, -, -⟩ := idx3 t
  funext y
  unfold iblk3
  rw [View.read_apply]
  show V c main_v6 _ = V c main_v6 y
  congr 1
  funext a
  apply Fin.ext
  match a with
  | ⟨0, _⟩ => show win3_2.index t (0 : Fin 2) * 1 + 1 * (y 0).val = (y 0).val; rw [e0]; omega
  | ⟨1, _⟩ => show win3_2.index t (1 : Fin 2) * 1 + 1 * (y 1).val = (y 1).val; rw [e1]; omega

/-- Two column arrays of the pass agree at two indices whose rows of the adjacency operands agree. -/
theorem colArr_kG3_row {R R' N : Nat} (A : Fin R → Fin N → EReal) (A' : Fin R' → Fin N → EReal) (g2 : Fin N → EReal)
    (bo : EReal) (j : (⟨2, ![R, 1]⟩ : Shape).Idx) (k : (⟨2, ![R', 1]⟩ : Shape).Idx) (h : A (j 0) = A' (k 0)) :
    colArr (kG3 A g2 bo) j = colArr (kG3 A' g2 bo) k :=
  kG3_row A A' g2 bo (j 0) (k 0) h

/-- What point t writes back: rows 1000 t … 1000 t + 999 of the pass over the whole adjacency array. -/
theorem flushed3 (c : Dev nD) (t : Fin cfg3.N) :
    (dat3 V c).flushed 3 t = ((cfg3.win 3).blk t).view.read (Elt Ideal)
      (colArr (kG3 (mat (V c main_v2_1)) (col (V c main_v5)) (V c main_v6 (ix2 0 0)))) := by
  show (cfg3.win 3).cut (grid3.coords t) ((dat3 V c).after 3 t) = _
  rw [after3_3]
  unfold out3_3
  rw [View.canon_unit_zero hz3]
  simp only [View.ld_unit_zero (S := S1000x10000) hz3, View.ld_unit_zero (S := S10000x1) hz3,
    View.ld_unit_zero (S := S1x1) hz3]
  rw [pay3, blk3_1, blk3_2]
  obtain ⟨-, -, -, -, -, -, e0, e1⟩ := idx3 t
  funext j
  rw [View.read_apply]
  show colArr (kG3 (mat (iblk3 V c 0 t : S1000x10000.Idx → EReal)) (col (V c main_v5)) (V c main_v6 (ix2 0 0))) j
    = colArr (kG3 (mat (V c main_v2_1)) (col (V c main_v5)) (V c main_v6 (ix2 0 0))) _
  refine colArr_kG3_row _ _ _ _ j _ (funext fun q => ?_)
  refine blk3_0 V c t (ix2 (j 0) q) _ ?_ rfl
  show win3_3.index t (0 : Fin 2) * 1000 + 1 * (j 0).val = t.val * 1000 + (j 0).val
  rw [e0]
  omega

/-- Every index of the result lies in the block of the point its row falls in. -/
theorem cover3 (c : Dev nD) (i : S10000x1.Idx) :
    ∃ t : Fin cfg3.N, (cfg3.win 3).flush t = true ∧ i ∈ ((cfg3.win 3).blk t).view.set := by
  have h0 : (i 0).val < 10000 := (i 0).isLt
  have h1 : (i 1).val < 1 := (i 1).isLt
  have hN : cfg3.N = 10 := N_3
  obtain ⟨t, ht⟩ : ∃ t : Fin cfg3.N, t.val = (i 0).val / 1000 := ⟨⟨(i 0).val / 1000, by rw [hN]; omega⟩, rfl⟩
  refine ⟨t, flush3_3 t, ?_⟩
  obtain ⟨-, -, -, -, -, -, e0, e1⟩ := idx3 t
  show i ∈ ((View.whole main_v7).slice (win3_3.rect t)).set
  rw [View.set_slice_whole, Rect.mem_set_unit]
  intro a
  match a with
  | ⟨0, _⟩ => show win3_3.index t (0 : Fin 2) * 1000 ≤ (i 0).val ∧ (i 0).val < win3_3.index t (0 : Fin 2) * 1000 + 1000; rw [e0, ht]; omega
  | ⟨1, _⟩ => show win3_3.index t (1 : Fin 2) * 1 ≤ (i 1).val ∧ (i 1).val < win3_3.index t (1 : Fin 2) * 1 + 1; rw [e1]; omega

/-- The result array of the pass: softplus (adj · g + bo), row by row, of the arrays the region finds. -/
theorem final3 (c : Dev nD) : (dat3 V c).arrAt 3 cfg3.N
    = colArr (kG3 (mat (V c main_v2_1)) (col (V c main_v5)) (V c main_v6 (ix2 0 0))) :=
  (dat3 V c).arrAt_eq_of_cover 3 _ (fun t _ => flushed3 V c t) (cover3 c)

end Cert.KernelIdeal.Val

end
-- ==== Proof.Chain.lean ====
/-
  The kernel's result array through its four passes and the reshapes between them.
  Each pass leaves its result array at its function of the arrays it was entered with; between the passes the host
  only views a bias vector, the last weight column and the last bias as one-row (or one-entry) matrices, which changes
  no entry; the bf16 copy of the adjacency matrix that pass 1 writes and passes 2 and 3 read is the matrix itself on
  the extended reals. Walking the buffer contents from the launch to the return, the result array ends at the
  composition of the four passes on the launch contents of the eight arguments.
-/
import proofs.«134197_g86620900426038_cont_sun_m_497_7_alg».proof.Proof.Gen.KernelIdeal.Frame
import proofs.«134197_g86620900426038_cont_sun_m_497_7_alg».proof.Proof.Spec
import proofs.«134197_g86620900426038_cont_sun_m_497_7_alg».proof.Proof.Region0
import proofs.«134197_g86620900426038_cont_sun_m_497_7_alg».proof.Proof.Region1
import proofs.«134197_g86620900426038_cont_sun_m_497_7_alg».proof.Proof.Region1Copy
import proofs.«134197_g86620900426038_cont_sun_m_497_7_alg».proof.Proof.Region2
import proofs.«134197_g86620900426038_cont_sun_m_497_7_alg».proof.Proof.Region3
import Idealize.ShloMosaic.Lib.Pipeline.Value
import Idealize.ShloMosaic.Lib.ValueIdx
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.Val Gnn

variable (m : (ℓ : Loc nD τ sig) → Buf (Elt Ideal) ℓ) (ρ : Dev nD → PrngReg)

/-! ## Reshapes of the small arguments, read as rows -/

/-- A vector viewed as a one-row matrix has that vector as its row. -/
theorem row_cast_vec {a : ℕ} (x : (⟨1, ![a]⟩ : Shape).Idx → EReal) (h : (⟨1, ![a]⟩ : Shape).ShapeCasts ⟨2, ![1, a]⟩) :
    row (shapeCast ⟨2, ![1, a]⟩ x h) = vec x := by
  funext j
  exact shapeCast_apply x h (ix2 0 j) (ix1 j) (by
    rw [Shape.rowMajor_val_one, Shape.rowMajor_val_two]; show (j : ℕ) = 0 * a + (j : ℕ); omega)

/-- A one-column matrix viewed as a one-row matrix has that column as its row. -/
theorem row_cast_col {a : ℕ} (x : (⟨2, ![a, 1]⟩ : Shape).Idx → EReal) (h : (⟨2, ![a, 1]⟩ : Shape).ShapeCasts ⟨2, ![1, a]⟩) :
    row (shapeCast ⟨2, ![1, a]⟩ x h) = col x := by
  funext j
  exact shapeCast_apply x h (ix2 0 j) (ix2 j 0) (by
    rw [Shape.rowMajor_val_two, Shape.rowMajor_val_two]; show (j : ℕ) * 1 + 0 = 0 * a + (j : ℕ); omega)

/-- A one-entry vector viewed as a one-by-one matrix has that entry. -/
theorem cast_one (x : (⟨1, ![1]⟩ : Shape).Idx → EReal) (h : (⟨1, ![1]⟩ : Shape).ShapeCasts ⟨2, ![1, 1]⟩) :
    shapeCast ⟨2, ![1, 1]⟩ x h (ix2 0 0) = x (ix1 0) :=
  shapeCast_apply x h (ix2 0 0) (ix1 0) (by
    rw [Shape.rowMajor_val_one, Shape.rowMajor_val_two]; simp)

/-! ## The arguments as matrices, and the four passes' results -/

abbrev aX (c : Dev nD) : Fin 10000 → Fin 128 → EReal := mat (m ((c : Thread nD τ).loc main_arg0))
abbrev aA (c : Dev nD) : Fin 10000 → Fin 10000 → EReal := mat (m ((c : Thread nD τ).loc main_arg1))
abbrev aW0 (c : Dev nD) : Fin 128 → Fin 64 → EReal := mat (m ((c : Thread nD τ).loc main_arg2))
abbrev aB0 (c : Dev nD) : Fin 64 → EReal := vec (m ((c : Thread nD τ).loc main_arg3))
abbrev aW1 (c : Dev nD) : Fin 64 → Fin 64 → EReal := mat (m ((c : Thread nD τ).loc main_arg4))
abbrev aB1 (c : Dev nD) : Fin 64 → EReal := vec (m ((c : Thread nD τ).loc main_arg5))
abbrev aWo (c : Dev nD) : Fin 64 → EReal := col (m ((c : Thread nD τ).loc main_arg6))
abbrev aBo (c : Dev nD) : EReal := m ((c : Thread nD τ).loc main_arg7) (ix1 0)

/-- x · W0 -/
def g0 (c : Dev nD) : Fin 10000 → Fin 64 → EReal := kG0 (aX m c) (aW0 m c)
/-- relu (adj · g0 + b0) · W1 -/
def g1 (c : Dev nD) : Fin 10000 → Fin 64 → EReal := kG1 (aA m c) (g0 m c) (aB0 m c) (aW1 m c)
/-- relu (adj · g1 + b1) · wo -/
def g2 (c : Dev nD) : Fin 10000 → EReal := kG2 (aA m c) (g1 m c) (aB1 m c) (aWo m c)
/-- softplus (adj · g2 + bo) -/
def g3 (c : Dev nD) : Fin 10000 → EReal := kG3 (aA m c) (g2 m c) (aBo m c)

/-- The last pass's result is the kernel's function of the arguments. -/
theorem g3_eq (c : Dev nD) :
    g3 m c = kern (aX m c) (aA m c) (aW0 m c) (aB0 m c) (aW1 m c) (aB1 m c) (aWo m c) (aBo m c) := rfl

/-! ## Pass 0 and the first reshape -/

/-- After pass 0 its result array holds x · W0 of the launch contents. -/
theorem W1_v0 (c : Dev nD) : W1 m ρ c (Proc.devRef .tc main_v0) = arr2 (g0 m c) :=
  (W1_arr m ρ c 2).trans (final0 (V0 m ρ) c)

/-- Pass 0 leaves every buffer that is not one of its three arrays as launched. -/
theorem W1_keep (c : Dev nD) (b : Ref sig .tc) (hb : ∀ w, Pipeline.arrRef spec0 w ≠ b) :
    W1 m ρ c (Proc.devRef .tc b) = m ((c : Thread nD τ).loc b) := W1_of_ne m ρ c b hb

theorem V2_v0 (c : Dev nD) : V2 m ρ c main_v0 = arr2 (g0 m c) := by
  show StableHlo.after hostOps1 (W1 m ρ c) (Proc.devRef .tc main_v0) = _
  after_results
  exact W1_v0 m ρ c

theorem V2_arg1 (c : Dev nD) : V2 m ρ c main_arg1 = m ((c : Thread nD τ).loc main_arg1) := by
  show StableHlo.after hostOps1 (W1 m ρ c) (Proc.devRef .tc main_arg1) = _
  after_results
  exact W1_keep m ρ c main_arg1 (by decide)

theorem V2_arg4 (c : Dev nD) : V2 m ρ c main_arg4 = m ((c : Thread nD τ).loc main_arg4) := by
  show StableHlo.after hostOps1 (W1 m ρ c) (Proc.devRef .tc main_arg4) = _
  after_results
  exact W1_keep m ρ c main_arg4 (by decide)

theorem V2_v1 (c : Dev nD) : row (V2 m ρ c main_v1) = aB0 m c := by
  have e : V2 m ρ c main_v1 = shapeCast S1x64 (m ((c : Thread nD τ).loc main_arg3)) shapeCasts_S64_S1x64 := by
    show StableHlo.after hostOps1 (W1 m ρ c) (Proc.devRef .tc main_v1) = _
    after_results
    rw [W1_keep m ρ c main_arg3 (by decide)]
    rfl
  rw [e]
  exact row_cast_vec _ _

/-! ## Pass 1 and the two reshapes after it -/

theorem W3_v2_0 (c : Dev nD) : W3 m ρ c (Proc.devRef .tc main_v2_0) = arr2 (g1 m c) := by
  refine (W3_arr m ρ c 4).trans ((final1_4 (V2 m ρ) c).trans ?_)
  rw [V2_arg1, V2_v0, V2_v1, V2_arg4]
  rfl

/-- The bf16 copy of the adjacency matrix is the matrix. -/
theorem W3_v2_1 (c : Dev nD) :
    (W3 m ρ c (Proc.devRef .tc main_v2_1) : S10000x10000.Idx → EReal) = m ((c : Thread nD τ).loc main_arg1) :=
  (W3_arr m ρ c 5).trans ((final1_5 (V2 m ρ) c).trans (V2_arg1 m ρ c))

theorem W3_arg5 (c : Dev nD) : W3 m ρ c (Proc.devRef .tc main_arg5) = m ((c : Thread nD τ).loc main_arg5) := by
  refine (W3_of_ne m ρ c main_arg5 (by decide)).trans ?_
  show StableHlo.after hostOps1 (W1 m ρ c) (Proc.devRef .tc main_arg5) = _
  after_results
  exact W1_keep m ρ c main_arg5 (by decide)

theorem W3_arg6 (c : Dev nD) : W3 m ρ c (Proc.devRef .tc main_arg6) = m ((c : Thread nD τ).loc main_arg6) := by
  refine (W3_of_ne m ρ c main_arg6 (by decide)).trans ?_
  show StableHlo.after hostOps1 (W1 m ρ c) (Proc.devRef .tc main_arg6) = _
  after_results
  exact W1_keep m ρ c main_arg6 (by decide)

theorem W3_arg7 (c : Dev nD) : W3 m ρ c (Proc.devRef .tc main_arg7) = m ((c : Thread nD τ).loc main_arg7) := by
  refine (W3_of_ne m ρ c main_arg7 (by decide)).trans ?_
  show StableHlo.after hostOps1 (W1 m ρ c) (Proc.devRef .tc main_arg7) = _
  after_results
  exact W1_keep m ρ c main_arg7 (by decide)

theorem V4_v2_0 (c : Dev nD) : V4 m ρ c main_v2_0 = arr2 (g1 m c) := by
  show StableHlo.after hostOps2 (W3 m ρ c) (Proc.devRef .tc main_v2_0) = _
  after_results
  exact W3_v2_0 m ρ c

theorem V4_v2_1 (c : Dev nD) :
    (V4 m ρ c main_v2_1 : S10000x10000.Idx → EReal) = m ((c : Thread nD τ).loc main_arg1) := by
  show StableHlo.after hostOps2 (W3 m ρ c) (Proc.devRef .tc main_v2_1) = _
  after_results
  exact W3_v2_1 m ρ c

theorem V4_v3 (c : Dev nD) : row (V4 m ρ c main_v3) = aB1 m c := by
  have e : V4 m ρ c main_v3 = shapeCast S1x64 (m ((c : Thread nD τ).loc main_arg5)) shapeCasts_S64_S1x64 := by
    show StableHlo.after hostOps2 (W3 m ρ c) (Proc.devRef .tc main_v3) = _
    after_results
    rw [W3_arg5 m ρ c]
    rfl
  rw [e]
  exact row_cast_vec _ _

theorem V4_v4 (c : Dev nD) : row (V4 m ρ c main_v4) = aWo m c := by
  have e : V4 m ρ c main_v4 = shapeCast S1x64 (m ((c : Thread nD τ).loc main_arg6)) shapeCasts_S64x1_S1x64 := by
    show StableHlo.after hostOps2 (W3 m ρ c) (Proc.devRef .tc main_v4) = _
    after_results
    rw [W3_arg6 m ρ c]
    rfl
  rw [e]
  exact row_cast_col _ _

/-! ## Pass 2 and the reshape after it -/

theorem W5_v5 (c : Dev nD) : W5 m ρ c (Proc.devRef .tc main_v5) = colArr (g2 m c) := by
  refine (W5_arr m ρ c 4).trans ((final2 (V4 m ρ) c).trans ?_)
  rw [V4_v2_0, V4_v3, V4_v4, V4_v2_1]
  rfl

theorem W5_v2_1 (c : Dev nD) :
    (W5 m ρ c (Proc.devRef .tc main_v2_1) : S10000x10000.Idx → EReal) = m ((c : Thread nD τ).loc main_arg1) :=
  (W5_arr m ρ c 0).trans ((((dat2 (V4 m ρ) c).arrAt_in 0 rfl _).trans (A_eq2 (V4 m ρ) c 0)).trans (V4_v2_1 m ρ c))

theorem W5_arg7 (c : Dev nD) : W5 m ρ c (Proc.devRef .tc main_arg7) = m ((c : Thread nD τ).loc main_arg7) := by
  refine (W5_of_ne m ρ c main_arg7 (by decide)).trans ?_
  show StableHlo.after hostOps2 (W3 m ρ c) (Proc.devRef .tc main_arg7) = _
  after_results
  exact W3_arg7 m ρ c

theorem V6_v5 (c : Dev nD) : V6 m ρ c main_v5 = colArr (g2 m c) := by
  show StableHlo.after hostOps3 (W5 m ρ c) (Proc.devRef .tc main_v5) = _
  after_results
  exact W5_v5 m ρ c

theorem V6_v2_1 (c : Dev nD) :
    (V6 m ρ c main_v2_1 : S10000x10000.Idx → EReal) = m ((c : Thread nD τ).loc main_arg1) := by
  show StableHlo.after hostOps3 (W5 m ρ c) (Proc.devRef .tc main_v2_1) = _
  after_results
  exact W5_v2_1 m ρ c

theorem V6_v6 (c : Dev nD) : V6 m ρ c main_v6 (ix2 0 0) = aBo m c := by
  have e : V6 m ρ c main_v6 = shapeCast S1x1 (m ((c : Thread nD τ).loc main_arg7)) shapeCasts_S1_S1x1 := by
    show StableHlo.after hostOps3 (W5 m ρ c) (Proc.devRef .tc main_v6) = _
    after_results
    rw [W5_arg7 m ρ c]
    rfl
  rw [e]
  exact cast_one _ _

/-! ## Pass 3: the result -/

/-- The kernel's result array, after its four passes, is the kernel's function of the launch contents. -/
theorem W7_v7 (c : Dev nD) : W7 m ρ c (Proc.devRef .tc main_v7)
    = colArr (kern (aX m c) (aA m c) (aW0 m c) (aB0 m c) (aW1 m c) (aB1 m c) (aWo m c) (aBo m c)) := by
  refine (W7_arr m ρ c 3).trans ((final3 (V6 m ρ) c).trans ?_)
  rw [V6_v5, V6_v6, V6_v2_1, ← g3_eq]
  rfl

end Cert.KernelIdeal.Chain

end
-- ==== Proof.RefValue.lean ====
/-
  The reference's result as one function of its arguments.

  The reference computes, with adj the adjacency matrix and x the features,
      h1  = relu ((adj · x) · W0 + b0),   h2 = relu ((adj · h1) · W1 + b1),   out = softplus ((adj · h2) · wo + bo).
  Each operation of the generated run is read at an index and met with the matrix form of the same step:
  a product of two matrices is the sum over the contracted coordinate, a bias is a row read at the column,
  relu is the maximum with zero, and softplus is spelled  max z 0 + log1p (exp (-|z - 0|))  behind a guard
  z - 0 ≠ z - 0  that never holds on the extended reals.
-/
import proofs.«134197_g86620900426038_cont_sun_m_497_7_alg».proof.Proof.Gen.ReferenceIdeal.Run
import proofs.«134197_g86620900426038_cont_sun_m_497_7_alg».proof.Proof.Gen.ReferenceIdeal.Read
import proofs.«134197_g86620900426038_cont_sun_m_497_7_alg».proof.Proof.Spec
import proofs.«134197_g86620900426038_cont_sun_m_497_7_alg».proof.Proof.LibPlainDot

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The contents of an f32 array of shape s at the ideal values: an extended real at every index. -/
abbrev A (s : Shape) : Type := (⟨s, .f32⟩ : BufTy).Contents (Elt Ideal)

/-- A rank-2 index is determined by the values of its two coordinates. -/
theorem idx2_eq {n0 n1 : Nat} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

/-- A value is never different from itself, so the guard of the printed softplus is the zero bit. -/
theorem cmp_une_self (a : EReal) : Ideal.cmp .une a a = 0#1 := by
  have h : decide (a ≠ a) = false := decide_eq_false fun hne => hne rfl
  show BitVec.ofBool (decide (a ≠ a)) = 0#1
  rw [h]
  rfl

/-! ## Layer 0 -/

/-- adj · x. -/
theorem v0_eq (x0 : A S10000x128) (x1 : A S10000x10000) :
    val_main_v0 (F := Ideal) x0 x1 = Gnn.arr2 (Gnn.mm (Gnn.mat x1) (Gnn.mat x0)) := by
  funext i
  rw [val_main_v0_apply]
  show _ = ∑ k : Fin 10000, Gnn.mat x1 (i 0) k * Gnn.mat x0 k (i 1)
  refine Finset.sum_congr rfl fun k _ => ?_
  rw [idx2_eq (lidx_main_v0 i k) (i 0) k rfl rfl, idx2_eq (ridx_main_v0 i k) k (i 1) rfl rfl]
  rfl

/-- (adj · x) · W0. -/
theorem v1_eq (x0 : A S10000x128) (x1 : A S10000x10000) (x2 : A S128x64) :
    val_main_v1 (F := Ideal) x0 x1 x2 = Gnn.arr2 (Gnn.mm (Gnn.mm (Gnn.mat x1) (Gnn.mat x0)) (Gnn.mat x2)) := by
  funext i
  rw [val_main_v1_apply, v0_eq]
  show _ = ∑ k : Fin 128, Gnn.mm (Gnn.mat x1) (Gnn.mat x0) (i 0) k * Gnn.mat x2 k (i 1)
  refine Finset.sum_congr rfl fun k _ => ?_
  rw [idx2_eq (ridx_main_v1 i k) k (i 1) rfl rfl]
  rfl

/-- The bias b0, broadcast along the rows: its entry at the column. -/
theorem v3_at (x3 : A S64) (i : S10000x64.Idx) : val_main_v3 (F := Ideal) x3 i = Gnn.vec x3 (i 1) := by
  rw [val_main_v3_apply, val_main_v2_apply]
  show x3 _ = x3 _
  congr 1
  funext a
  match a with
  | ⟨0, _⟩ => rfl

/-- The constant of relu is the extended real zero. -/
theorem call0_zero (i : S10000x64.Idx) : val_main_call0_v0 (F := Ideal) i = (0 : EReal) := by
  rw [val_main_call0_v0_apply, val_main_call0_cst_apply]
  exact Ideal.ofBits_zero_f32

/-- h1 = relu ((adj · x) · W0 + b0). -/
theorem v5_eq (x0 : A S10000x128) (x1 : A S10000x10000) (x2 : A S128x64) (x3 : A S64) :
    val_main_v5 (F := Ideal) x0 x1 x2 x3
      = Gnn.arr2 (Gnn.act (Gnn.mm (Gnn.mm (Gnn.mat x1) (Gnn.mat x0)) (Gnn.mat x2)) (Gnn.vec x3)) := by
  funext i
  rw [val_main_v5_apply, val_main_v4_apply, call0_zero, v1_eq, v3_at]
  rfl

/-! ## Layer 1 -/

/-- adj · h1. -/
theorem v6_eq (x0 : A S10000x128) (x1 : A S10000x10000) (x2 : A S128x64) (x3 : A S64) :
    val_main_v6 (F := Ideal) x0 x1 x2 x3
      = Gnn.arr2 (Gnn.mm (Gnn.mat x1)
          (Gnn.act (Gnn.mm (Gnn.mm (Gnn.mat x1) (Gnn.mat x0)) (Gnn.mat x2)) (Gnn.vec x3))) := by
  funext i
  rw [val_main_v6_apply, v5_eq]
  show _ = ∑ k : Fin 10000, Gnn.mat x1 (i 0) k
      * Gnn.act (Gnn.mm (Gnn.mm (Gnn.mat x1) (Gnn.mat x0)) (Gnn.mat x2)) (Gnn.vec x3) k (i 1)
  refine Finset.sum_congr rfl fun k _ => ?_
  rw [idx2_eq (lidx_main_v6 i k) (i 0) k rfl rfl]
  rfl

/-- (adj · h1) · W1. -/
theorem v7_eq (x0 : A S10000x128) (x1 : A S10000x10000) (x2 : A S128x64) (x3 : A S64) (x4 : A S64x64) :
    val_main_v7 (F := Ideal) x0 x1 x2 x3 x4
      = Gnn.arr2 (Gnn.mm (Gnn.mm (Gnn.mat x1)
          (Gnn.act (Gnn.mm (Gnn.mm (Gnn.mat x1) (Gnn.mat x0)) (Gnn.mat x2)) (Gnn.vec x3))) (Gnn.mat x4)) := by
  funext i
  rw [val_main_v7_apply, v6_eq]
  show _ = ∑ k : Fin 64, Gnn.mm (Gnn.mat x1)
      (Gnn.act (Gnn.mm (Gnn.mm (Gnn.mat x1) (Gnn.mat x0)) (Gnn.mat x2)) (Gnn.vec x3)) (i 0) k * Gnn.mat x4 k (i 1)
  refine Finset.sum_congr rfl fun k _ => ?_
  rw [idx2_eq (ridx_main_v7 i k) k (i 1) rfl rfl]
  rfl

/-- The bias b1, broadcast along the rows: its entry at the column. -/
theorem v9_at (x5 : A S64) (i : S10000x64.Idx) : val_main_v9 (F := Ideal) x5 i = Gnn.vec x5 (i 1) := by
  rw [val_main_v9_apply, val_main_v8_apply]
  show x5 _ = x5 _
  congr 1
  funext a
  match a with
  | ⟨0, _⟩ => rfl

theorem call1_zero (i : S10000x64.Idx) : val_main_call1_v0 (F := Ideal) i = (0 : EReal) := by
  rw [val_main_call1_v0_apply, val_main_call1_cst_apply]
  exact Ideal.ofBits_zero_f32

/-- h2 = relu ((adj · h1) · W1 + b1). -/
theorem v11_eq (x0 : A S10000x128) (x1 : A S10000x10000) (x2 : A S128x64) (x3 : A S64) (x4 : A S64x64) (x5 : A S64) :
    val_main_v11 (F := Ideal) x0 x1 x2 x3 x4 x5
      = Gnn.arr2 (Gnn.act (Gnn.mm (Gnn.mm (Gnn.mat x1)
          (Gnn.act (Gnn.mm (Gnn.mm (Gnn.mat x1) (Gnn.mat x0)) (Gnn.mat x2)) (Gnn.vec x3))) (Gnn.mat x4)) (Gnn.vec x5)) := by
  funext i
  rw [val_main_v11_apply, val_main_v10_apply, call1_zero, v7_eq, v9_at]
  rfl

/-! ## The output layer -/

/-- adj · h2. -/
theorem v12_eq (x0 : A S10000x128) (x1 : A S10000x10000) (x2 : A S128x64) (x3 : A S64) (x4 : A S64x64) (x5 : A S64) :
    val_main_v12 (F := Ideal) x0 x1 x2 x3 x4 x5
      = Gnn.arr2 (Gnn.mm (Gnn.mat x1) (Gnn.act (Gnn.mm (Gnn.mm (Gnn.mat x1)
          (Gnn.act (Gnn.mm (Gnn.mm (Gnn.mat x1) (Gnn.mat x0)) (Gnn.mat x2)) (Gnn.vec x3))) (Gnn.mat x4)) (Gnn.vec x5))) := by
  funext i
  rw [val_main_v12_apply, v11_eq]
  show _ = ∑ k : Fin 10000, Gnn.mat x1 (i 0) k * Gnn.act (Gnn.mm (Gnn.mm (Gnn.mat x1)
      (Gnn.act (Gnn.mm (Gnn.mm (Gnn.mat x1) (Gnn.mat x0)) (Gnn.mat x2)) (Gnn.vec x3))) (Gnn.mat x4)) (Gnn.vec x5) k (i 1)
  refine Finset.sum_congr rfl fun k _ => ?_
  rw [idx2_eq (lidx_main_v12 i k) (i 0) k rfl rfl]
  rfl

/-- (adj · h2) · wo: the right operand has one column, so the product is a matrix times a vector. -/
theorem v13_eq (x0 : A S10000x128) (x1 : A S10000x10000) (x2 : A S128x64) (x3 : A S64) (x4 : A S64x64) (x5 : A S64)
    (x6 : A S64x1) :
    val_main_v13 (F := Ideal) x0 x1 x2 x3 x4 x5 x6
      = Gnn.colArr (Gnn.mv (Gnn.mm (Gnn.mat x1) (Gnn.act (Gnn.mm (Gnn.mm (Gnn.mat x1)
          (Gnn.act (Gnn.mm (Gnn.mm (Gnn.mat x1) (Gnn.mat x0)) (Gnn.mat x2)) (Gnn.vec x3))) (Gnn.mat x4)) (Gnn.vec x5)))
          (Gnn.col x6)) := by
  funext i
  rw [val_main_v13_apply, v12_eq]
  show _ = ∑ k : Fin 64, Gnn.mm (Gnn.mat x1) (Gnn.act (Gnn.mm (Gnn.mm (Gnn.mat x1)
      (Gnn.act (Gnn.mm (Gnn.mm (Gnn.mat x1) (Gnn.mat x0)) (Gnn.mat x2)) (Gnn.vec x3))) (Gnn.mat x4)) (Gnn.vec x5)) (i 0) k
      * Gnn.col x6 k
  refine Finset.sum_congr rfl fun k _ => ?_
  rw [idx2_eq (ridx_main_v13 i k) k 0 rfl (Nat.lt_one_iff.mp (idx2_lt1 i))]
  rfl

/-- The bias bo, broadcast along the rows: its one entry. -/
theorem v15_at (x7 : A S1) (i : S10000x1.Idx) : val_main_v15 (F := Ideal) x7 i = x7 (ix1 0) := by
  rw [val_main_v15_apply, val_main_v14_apply]
  congr 1
  funext a
  match a with
  | ⟨0, _⟩ => rfl

/-- z = (adj · h2) · wo + bo. -/
theorem v16_eq (x0 : A S10000x128) (x1 : A S10000x10000) (x2 : A S128x64) (x3 : A S64) (x4 : A S64x64) (x5 : A S64)
    (x6 : A S64x1) (x7 : A S1) :
    val_main_v16 (F := Ideal) x0 x1 x2 x3 x4 x5 x6 x7
      = Gnn.colArr (fun r => Gnn.mv (Gnn.mm (Gnn.mat x1) (Gnn.act (Gnn.mm (Gnn.mm (Gnn.mat x1)
          (Gnn.act (Gnn.mm (Gnn.mm (Gnn.mat x1) (Gnn.mat x0)) (Gnn.mat x2)) (Gnn.vec x3))) (Gnn.mat x4)) (Gnn.vec x5)))
          (Gnn.col x6) r + x7 (ix1 0)) := by
  funext i
  rw [val_main_v16_apply, v13_eq, v15_at]
  rfl

theorem call2_v0_zero (i : S10000x1.Idx) : val_main_call2_v0 (F := Ideal) i = (0 : EReal) := by
  rw [val_main_call2_v0_apply, val_main_call2_cst_apply]
  exact Ideal.ofBits_zero_f32
theorem call2_v2_zero (i : S10000x1.Idx) : val_main_call2_v2 (F := Ideal) i = (0 : EReal) := by
  rw [val_main_call2_v2_apply, val_main_call2_cst_apply]
  exact Ideal.ofBits_zero_f32
theorem call2_v5_zero (i : S10000x1.Idx) : val_main_call2_v5 (F := Ideal) i = (0 : EReal) := by
  rw [val_main_call2_v5_apply, val_main_call2_cst_apply]
  exact Ideal.ofBits_zero_f32

/-- The printed softplus of z: the guard z - 0 ≠ z - 0 is false, so the selection takes its second branch,
    max z 0 + log1p (exp (-|z - 0|)). -/
theorem v17_at (x0 : A S10000x128) (x1 : A S10000x10000) (x2 : A S128x64) (x3 : A S64) (x4 : A S64x64) (x5 : A S64)
    (x6 : A S64x1) (x7 : A S1) (i : S10000x1.Idx) :
    val_main_v17 (F := Ideal) x0 x1 x2 x3 x4 x5 x6 x7 i
      = Gnn.splus (val_main_v16 (F := Ideal) x0 x1 x2 x3 x4 x5 x6 x7 i) := by
  rw [val_main_v17_apply, val_main_call2_v4_apply, val_main_call2_v6_apply, val_main_call2_v11_apply,
    val_main_call2_v1_apply, val_main_call2_v10_apply, val_main_call2_v9_apply, val_main_call2_v8_apply,
    val_main_call2_v7_apply, val_main_call2_v3_apply, call2_v0_zero, call2_v2_zero, call2_v5_zero]
  generalize val_main_v16 (F := Ideal) x0 x1 x2 x3 x4 x5 x6 x7 i = z
  rw [Ideal.cmpf_def, cmp_une_self, select_zero]
  rfl

/-- The last stage is the reference's formula. -/
theorem v17_eq (x0 : A S10000x128) (x1 : A S10000x10000) (x2 : A S128x64) (x3 : A S64) (x4 : A S64x64) (x5 : A S64)
    (x6 : A S64x1) (x7 : A S1) :
    val_main_v17 (F := Ideal) x0 x1 x2 x3 x4 x5 x6 x7
      = Gnn.colArr (Gnn.ref (Gnn.mat x0) (Gnn.mat x1) (Gnn.mat x2) (Gnn.vec x3) (Gnn.mat x4) (Gnn.vec x5) (Gnn.col x6)
          (x7 (ix1 0))) := by
  funext i
  rw [v17_at, v16_eq]
  rfl

/-- THE REFERENCE'S RESULT is the graph network's formula of the matrices of its eight arguments. -/
theorem result_eq (m : (ℓ : Loc nD τ sig) → Buf (Elt Ideal) ℓ) (c : Dev nD) :
    Cert.ReferenceIdeal.Value.res_main_v17 (F := Ideal) m c
      = Gnn.colArr (Gnn.ref (Gnn.mat (m ((c.tc : Thread nD τ).loc main_arg0))) (Gnn.mat (m ((c.tc : Thread nD τ).loc main_arg1)))
          (Gnn.mat (m ((c.tc : Thread nD τ).loc main_arg2))) (Gnn.vec (m ((c.tc : Thread nD τ).loc main_arg3)))
          (Gnn.mat (m ((c.tc : Thread nD τ).loc main_arg4))) (Gnn.vec (m ((c.tc : Thread nD τ).loc main_arg5)))
          (Gnn.col (m ((c.tc : Thread nD τ).loc main_arg6))) (m ((c.tc : Thread nD τ).loc main_arg7) (ix1 0))) := by
  rw [Read.val_main_v17_eq]
  exact v17_eq _ _ _ _ _ _ _ _

end Cert.ReferenceIdeal.RefValue

end
-- ==== Proof.Algebra.lean ====
/-
  The algebra of the graph network on real entries.

  Every entry of every array is the coercion of a real number.  A product of two coerced reals is the coercion of the
  real product, a finite sum of coerced reals is the coercion of the real sum, and  max (↑r) 0 = ↑(max r 0);  hence every
  intermediate matrix of both programs is the coercion of a real matrix.  Over the reals the matrix product is
  associative,  adj · (x · W) = (adj · x) · W,  and likewise with a vector in the place of W.  That is the whole
  difference between the kernel (the small linear map first) and the reference (the adjacency product first).
-/
import proofs.«134197_g86620900426038_cont_sun_m_497_7_alg».proof.Proof.Spec
import Mathlib.Data.EReal.Basic
import Mathlib.Algebra.BigOperators.Ring.Finset
import Mathlib.Algebra.BigOperators.Group.Finset.Basic

noncomputable section

namespace Gnn

/-! ## The real operations -/

/-- The matrix product on the reals. -/
def mmR {n k m : Nat} (a : Fin n → Fin k → ℝ) (b : Fin k → Fin m → ℝ) : Fin n → Fin m → ℝ :=
  fun i j => ∑ l, a i l * b l j

/-- A real matrix times a real vector. -/
def mvR {n k : Nat} (a : Fin n → Fin k → ℝ) (v : Fin k → ℝ) : Fin n → ℝ :=
  fun i => ∑ l, a i l * v l

/-- relu (z + b) on the reals. -/
def actR {n m : Nat} (z : Fin n → Fin m → ℝ) (b : Fin m → ℝ) : Fin n → Fin m → ℝ :=
  fun i c => max (z i c + b c) 0

/-! ## Coercions -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion commutes with max. -/
theorem coe_max (r s : ℝ) : ((max r s : ℝ) : EReal) = max (r : EReal) (s : EReal) := by
  rcases le_total r s with h | h
  · rw [max_eq_right h, max_eq_right (EReal.coe_le_coe_iff.2 h)]
  · rw [max_eq_left h, max_eq_left (EReal.coe_le_coe_iff.2 h)]

/-- The product of two coerced real matrices is the coerced real product. -/
theorem mm_coe {n k m : Nat} (a : Fin n → Fin k → ℝ) (b : Fin k → Fin m → ℝ) :
    mm (fun i l => (a i l : EReal)) (fun l j => (b l j : EReal)) = fun i j => ((mmR a b i j : ℝ) : EReal) := by
  funext i j
  simp only [mm, mmR, coe_sum, EReal.coe_mul]

/-- A coerced real matrix times a coerced real vector is the coerced real product. -/
theorem mv_coe {n k : Nat} (a : Fin n → Fin k → ℝ) (v : Fin k → ℝ) :
    mv (fun i l => (a i l : EReal)) (fun l => (v l : EReal)) = fun i => ((mvR a v i : ℝ) : EReal) := by
  funext i
  simp only [mv, mvR, coe_sum, EReal.coe_mul]

/-- relu (z + b) of coerced reals is the coerced real one. -/
theorem act_coe {n m : Nat} (z : Fin n → Fin m → ℝ) (b : Fin m → ℝ) :
    act (fun i c => (z i c : EReal)) (fun c => (b c : EReal)) = fun i c => ((actR z b i c : ℝ) : EReal) := by
  funext i c
  simp only [act, actR, coe_max, EReal.coe_add, EReal.coe_zero]

/-! ## Associativity over the reals -/

/-- a · (b · c) = (a · b) · c. -/
theorem mmR_assoc {n k m p : Nat} (a : Fin n → Fin k → ℝ) (b : Fin k → Fin m → ℝ) (c : Fin m → Fin p → ℝ) :
    mmR a (mmR b c) = mmR (mmR a b) c := by
  funext i j
  simp only [mmR, Finset.mul_sum, Finset.sum_mul]
  rw [Finset.sum_comm]
  simp only [mul_assoc]

/-- a · (b · v) = (a · b) · v. -/
theorem mvR_assoc {n k m : Nat} (a : Fin n → Fin k → ℝ) (b : Fin k → Fin m → ℝ) (v : Fin m → ℝ) :
    mvR a (mvR b v) = mvR (mmR a b) v := by
  funext i
  simp only [mvR, mmR, Finset.mul_sum, Finset.sum_mul]
  rw [Finset.sum_comm]
  simp only [mul_assoc]

/-! ## The kernel and the reference agree -/

variable {N D H : Nat}

/-- On real inputs the kernel and the reference compute the same vector. -/
theorem kern_eq_ref_real (x : Fin N → Fin D → ℝ) (adj : Fin N → Fin N → ℝ) (w0 : Fin D → Fin H → ℝ) (b0 : Fin H → ℝ)
    (w1 : Fin H → Fin H → ℝ) (b1 : Fin H → ℝ) (wo : Fin H → ℝ) (bo : EReal) :
    kern (fun i j => (x i j : EReal)) (fun i j => (adj i j : EReal)) (fun i j => (w0 i j : EReal)) (fun c => (b0 c : EReal))
        (fun i j => (w1 i j : EReal)) (fun c => (b1 c : EReal)) (fun c => (wo c : EReal)) bo
      = ref (fun i j => (x i j : EReal)) (fun i j => (adj i j : EReal)) (fun i j => (w0 i j : EReal)) (fun c => (b0 c : EReal))
        (fun i j => (w1 i j : EReal)) (fun c => (b1 c : EReal)) (fun c => (wo c : EReal)) bo := by
  unfold kern ref kG3 kG2 kG1 kG0
  simp only [mm_coe, mv_coe, act_coe, mmR_assoc, mvR_assoc]

/-- The same for extended-real inputs every entry of which is a real number (neither ⊤ nor ⊥). -/
theorem kern_eq_ref (x : Fin N → Fin D → EReal) (adj : Fin N → Fin N → EReal) (w0 : Fin D → Fin H → EReal)
    (b0 : Fin H → EReal) (w1 : Fin H → Fin H → EReal) (b1 : Fin H → EReal) (wo : Fin H → EReal) (bo : EReal)
    (hx : ∀ i j, x i j ≠ ⊤ ∧ x i j ≠ ⊥) (hadj : ∀ i j, adj i j ≠ ⊤ ∧ adj i j ≠ ⊥)
    (hw0 : ∀ i j, w0 i j ≠ ⊤ ∧ w0 i j ≠ ⊥) (hb0 : ∀ c, b0 c ≠ ⊤ ∧ b0 c ≠ ⊥)
    (hw1 : ∀ i j, w1 i j ≠ ⊤ ∧ w1 i j ≠ ⊥) (hb1 : ∀ c, b1 c ≠ ⊤ ∧ b1 c ≠ ⊥)
    (hwo : ∀ c, wo c ≠ ⊤ ∧ wo c ≠ ⊥) :
    kern x adj w0 b0 w1 b1 wo bo = ref x adj w0 b0 w1 b1 wo bo := by
  have ex : (fun i j => (((x i j).toReal : ℝ) : EReal)) = x :=
    funext fun i => funext fun j => EReal.coe_toReal (hx i j).1 (hx i j).2
  have eadj : (fun i j => (((adj i j).toReal : ℝ) : EReal)) = adj :=
    funext fun i => funext fun j => EReal.coe_toReal (hadj i j).1 (hadj i j).2
  have ew0 : (fun i j => (((w0 i j).toReal : ℝ) : EReal)) = w0 :=
    funext fun i => funext fun j => EReal.coe_toReal (hw0 i j).1 (hw0 i j).2
  have eb0 : (fun c => (((b0 c).toReal : ℝ) : EReal)) = b0 :=
    funext fun c => EReal.coe_toReal (hb0 c).1 (hb0 c).2
  have ew1 : (fun i j => (((w1 i j).toReal : ℝ) : EReal)) = w1 :=
    funext fun i => funext fun j => EReal.coe_toReal (hw1 i j).1 (hw1 i j).2
  have eb1 : (fun c => (((b1 c).toReal : ℝ) : EReal)) = b1 :=
    funext fun c => EReal.coe_toReal (hb1 c).1 (hb1 c).2
  have ewo : (fun c => (((wo c).toReal : ℝ) : EReal)) = wo :=
    funext fun c => EReal.coe_toReal (hwo c).1 (hwo c).2
  have h := kern_eq_ref_real (fun i j => (x i j).toReal) (fun i j => (adj i j).toReal) (fun i j => (w0 i j).toReal)
    (fun c => (b0 c).toReal) (fun i j => (w1 i j).toReal) (fun c => (b1 c).toReal) (fun c => (wo c).toReal) bo
  rw [ex, eadj, ew0, eb0, ew1, eb1, ewo] at h
  exact h

end Gnn

end
-- ==== Proof.Finite.lean ====
/-
  Finiteness of the inputs. The precondition says that, for each of the eight float arguments x,
  the conjunction over all entries of |x| < +infinity is true. At the ideal instance an entry is an
  extended real, |x| is max x (-x), and +infinity is the top element; so every entry of every
  argument is neither top nor bottom, that is, a real number.
-/
import proofs.«134197_g86620900426038_cont_sun_m_497_7_alg».proof.Defs
import proofs.«134197_g86620900426038_cont_sun_m_497_7_alg».proof.Proof.Gen.Pre_finite_inputs
import Idealize.ShloMosaic.Lib.ReduceAll
import Idealize.ShloMosaic.Lib.ValueIdx
import Mathlib.Data.EReal.Basic

namespace Cert.KernelIdeal.Finite

open Idealize.ShloMosaic Idealize.SL.Sem

/-- The scalar shape has exactly one index. -/
instance subsingleton_scalar_idx : Subsingleton (⟨0, ![]⟩ : Shape).Idx :=
  ⟨fun a b => funext fun d => d.elim0⟩

/-- An extended real x with max x (-x) strictly below the f32 pattern of +infinity (which denotes top)
    is neither top nor bottom: x < top gives the first, and -x < top excludes x = bottom. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    x ≠ ⊤ ∧ x ≠ ⊥ := by
  have hinf : Ideal.ofBits .f32 0x7F800000#32 = (⊤ : EReal) := by simp [Ideal.ofBits, Ideal.ieee]
  change BitVec.ofBool (decide (max x (-x) < Ideal.ofBits .f32 0x7F800000#32)) = 1#1 at h
  rw [hinf] at h
  have h' : max x (-x) < ⊤ := by
    by_contra hn
    rw [decide_eq_false hn] at h
    exact absurd h (by decide)
  rw [max_lt_iff] at h'
  refine ⟨ne_of_lt h'.1, fun hb => ?_⟩
  rw [hb] at h'
  simp at h'

/-- Over an arbitrary shape: if the conjunction over all entries of (|x| < +infinity) is true, then
    every entry of x is a real number. The array stays a variable; nothing is evaluated over its
    index type. -/
theorem real_of_all {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (init : IVec (⟨0, ![]⟩ : Shape) 1) (j : (⟨0, ![]⟩ : Shape).Idx)
    (e : Host.reduce IntOp.andi
          (cmpf .olt (Host.absf x)
            (broadcastInDim s ![] hb (constant (F := Ideal) (⟨0, ![]⟩ : Shape) .f32 0x7F800000#32)))
          init hr hu j = 1#1)
    (i : s.Idx) : x i ≠ ⊤ ∧ x i ≠ ⊥ :=
  real_of_abs_lt_inf (x i) (Host.reduce_andi_all _ init hr hu j e i)

/-- An extended real that is neither top nor bottom is (the coercion of) a real number. -/
theorem exists_real {x : EReal} (h : x ≠ ⊤ ∧ x ≠ ⊥) : ∃ r : ℝ, x = (r : EReal) :=
  ⟨x.toReal, (EReal.coe_toReal h.1 h.2).symm⟩

/-- Under the precondition every entry of each of the eight argument arrays is a real number. -/
theorem real_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, @Ne EReal (m ((c.tc : Thread Cert.KernelIdeal.nD Cert.KernelIdeal.τ).loc Cert.KernelIdeal.main_arg0) i) ⊤ ∧ @Ne EReal (m ((c.tc : Thread Cert.KernelIdeal.nD Cert.KernelIdeal.τ).loc Cert.KernelIdeal.main_arg0) i) ⊥)
    ∧ (∀ i, @Ne EReal (m ((c.tc : Thread Cert.KernelIdeal.nD Cert.KernelIdeal.τ).loc Cert.KernelIdeal.main_arg1) i) ⊤ ∧ @Ne EReal (m ((c.tc : Thread Cert.KernelIdeal.nD Cert.KernelIdeal.τ).loc Cert.KernelIdeal.main_arg1) i) ⊥)
    ∧ (∀ i, @Ne EReal (m ((c.tc : Thread Cert.KernelIdeal.nD Cert.KernelIdeal.τ).loc Cert.KernelIdeal.main_arg2) i) ⊤ ∧ @Ne EReal (m ((c.tc : Thread Cert.KernelIdeal.nD Cert.KernelIdeal.τ).loc Cert.KernelIdeal.main_arg2) i) ⊥)
    ∧ (∀ i, @Ne EReal (m ((c.tc : Thread Cert.KernelIdeal.nD Cert.KernelIdeal.τ).loc Cert.KernelIdeal.main_arg3) i) ⊤ ∧ @Ne EReal (m ((c.tc : Thread Cert.KernelIdeal.nD Cert.KernelIdeal.τ).loc Cert.KernelIdeal.main_arg3) i) ⊥)
    ∧ (∀ i, @Ne EReal (m ((c.tc : Thread Cert.KernelIdeal.nD Cert.KernelIdeal.τ).loc Cert.KernelIdeal.main_arg4) i) ⊤ ∧ @Ne EReal (m ((c.tc : Thread Cert.KernelIdeal.nD Cert.KernelIdeal.τ).loc Cert.KernelIdeal.main_arg4) i) ⊥)
    ∧ (∀ i, @Ne EReal (m ((c.tc : Thread Cert.KernelIdeal.nD Cert.KernelIdeal.τ).loc Cert.KernelIdeal.main_arg5) i) ⊤ ∧ @Ne EReal (m ((c.tc : Thread Cert.KernelIdeal.nD Cert.KernelIdeal.τ).loc Cert.KernelIdeal.main_arg5) i) ⊥)
    ∧ (∀ i, @Ne EReal (m ((c.tc : Thread Cert.KernelIdeal.nD Cert.KernelIdeal.τ).loc Cert.KernelIdeal.main_arg6) i) ⊤ ∧ @Ne EReal (m ((c.tc : Thread Cert.KernelIdeal.nD Cert.KernelIdeal.τ).loc Cert.KernelIdeal.main_arg6) i) ⊥)
    ∧ (∀ i, @Ne EReal (m ((c.tc : Thread Cert.KernelIdeal.nD Cert.KernelIdeal.τ).loc Cert.KernelIdeal.main_arg7) i) ⊤ ∧ @Ne EReal (m ((c.tc : Thread Cert.KernelIdeal.nD Cert.KernelIdeal.τ).loc Cert.KernelIdeal.main_arg7) i) ⊥) := by
  have h0 := congrFun (h c) ValueIdx.ix0
  dsimp only [Cert.Pre_finite_inputs.fn, Cert.Pre_finite_inputs.fn_part1, Cert.Pre_finite_inputs.fn_part2,
    andi] at h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun i => real_of_all _ _ _ _ _ _ e0 i, fun i => real_of_all _ _ _ _ _ _ e1 i,
    fun i => real_of_all _ _ _ _ _ _ e2 i, fun i => real_of_all _ _ _ _ _ _ e3 i,
    fun i => real_of_all _ _ _ _ _ _ e4 i, fun i => real_of_all _ _ _ _ _ _ e5 i,
    fun i => real_of_all _ _ _ _ _ _ e6 i, fun i => real_of_all _ _ _ _ _ _ e7 i⟩

end Cert.KernelIdeal.Finite
-- ==== Proof.lean ====
/-
  The certificate's five claims.
  The kernel streams the dense adjacency matrix three times and applies every small linear map BEFORE the big product:
  adj · (x · W0), adj · (relu(…) · W1), adj · (relu(…) · wo), keeping a bf16 copy of adj for the later passes; the
  reference aggregates first, (adj · x) · W0 and so on. On the extended reals a change of float format is the identity,
  so the copy is adj itself, and the two orders of multiplication agree as soon as every entry is a real number, which
  the precondition gives: sums and products of reals stay real, and over the reals matrix multiplication is
  associative. The frames of the two kernel programs are the generated ones; the reference's frame is its run with the
  result dropped; the idealization rewrote nothing, so there is nothing to preserve.
-/
import proofs.«134197_g86620900426038_cont_sun_m_497_7_alg».proof.Defs
import proofs.«134197_g86620900426038_cont_sun_m_497_7_alg».proof.Proof.Gen.Kernel
import proofs.«134197_g86620900426038_cont_sun_m_497_7_alg».proof.Proof.Gen.Kernel.Frame
import proofs.«134197_g86620900426038_cont_sun_m_497_7_alg».proof.Proof.Gen.KernelIdeal
import proofs.«134197_g86620900426038_cont_sun_m_497_7_alg».proof.Proof.Gen.KernelIdeal.Frame
import proofs.«134197_g86620900426038_cont_sun_m_497_7_alg».proof.Proof.Gen.ReferenceIdeal
import proofs.«134197_g86620900426038_cont_sun_m_497_7_alg».proof.Proof.Gen.ReferenceIdeal.Run
import proofs.«134197_g86620900426038_cont_sun_m_497_7_alg».proof.Proof.Gen.Pre_finite_inputs
import proofs.«134197_g86620900426038_cont_sun_m_497_7_alg».proof.Proof.RunMain
import proofs.«134197_g86620900426038_cont_sun_m_497_7_alg».proof.Proof.Chain
import proofs.«134197_g86620900426038_cont_sun_m_497_7_alg».proof.Proof.RefValue
import proofs.«134197_g86620900426038_cont_sun_m_497_7_alg».proof.Proof.Algebra
import proofs.«134197_g86620900426038_cont_sun_m_497_7_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Gnn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the kernel's function of the arguments: the kernel by its four passes,
    the reference because, on real entries, aggregating first and multiplying first are one function. -/
theorem algebraic : Cert.algebraic_KernelIdeal_ReferenceIdeal := by
  intro m ρ m' ρ' hpre hagree
  refine ⟨fun c => colArr (kern (Cert.KernelIdeal.Chain.aX m c) (Cert.KernelIdeal.Chain.aA m c) (Cert.KernelIdeal.Chain.aW0 m c)
      (Cert.KernelIdeal.Chain.aB0 m c) (Cert.KernelIdeal.Chain.aW1 m c) (Cert.KernelIdeal.Chain.aB1 m c)
      (Cert.KernelIdeal.Chain.aWo m c) (Cert.KernelIdeal.Chain.aBo m c)), ?_, ?_⟩
  · exact (θ_run Cert.KernelIdeal.defs _ _).mono
      (fun r h c => ⟨(h c).1.trans (Cert.KernelIdeal.Chain.W7_v7 m ρ c), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := Cert.KernelIdeal.Finite.real_of_pre m hpre c
    obtain ⟨e0, e1, e2, e3, e4, e5, e6, e7⟩ := hagree c
    rw [Cert.ReferenceIdeal.RefValue.result_eq m' c, e0, e1, e2, e3, e4, e5, e6, e7]
    refine congrArg colArr (Gnn.kern_eq_ref _ _ _ _ _ _ _ _ ?_ ?_ ?_ ?_ ?_ ?_ ?_).symm
    · exact fun i j => h0 (ix2 i j)
    · exact fun i j => h1 (ix2 i j)
    · exact fun i j => h2 (ix2 i j)
    · exact fun i => h3 (ix1 i)
    · exact fun i j => h4 (ix2 i j)
    · exact fun i => h5 (ix1 i)
    · exact fun i => h6 (ix2 i 0)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
